-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x1024x1024 .f32) (main_arg1 : FVec F S3072x1024 .f32) (main_arg2 : FVec F S1024x1024 .f32) (main_arg3 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S8x1024x3072 : Shape := ⟨3, ![8, 1024, 3072]⟩
abbrev S1x1024x128 : Shape := ⟨3, ![1, 1024, 128]⟩
abbrev S1x1024x64 : Shape := ⟨3, ![1, 1024, 64]⟩
abbrev S1024x64 : Shape := ⟨2, ![1024, 64]⟩
abbrev S256x64 : Shape := ⟨2, ![256, 64]⟩
abbrev S256x1024 : Shape := ⟨2, ![256, 1024]⟩
abbrev S256 : Shape := ⟨1, ![256]⟩
abbrev S256x1 : Shape := ⟨2, ![256, 1]⟩
abbrev S1x256x64 : Shape := ⟨3, ![1, 256, 64]⟩
abbrev S1x1024 : Shape := ⟨2, ![1, 1024]⟩

abbrev nBuf : Space → Nat
  | .hbm => 14
  | .vmem => 19
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S3072x1024, .bf16⟩
  | .hbm, ⟨6, _⟩ => ⟨S8192x3072, .bf16⟩
  | .hbm, ⟨7, _⟩ => ⟨S8x1024x3072, .bf16⟩
  | .hbm, ⟨8, _⟩ => ⟨S8x1024x1024, .bf16⟩
  | .hbm, ⟨9, _⟩ => ⟨S8192x1024, .bf16⟩
  | .hbm, ⟨10, _⟩ => ⟨S1024x1024, .bf16⟩
  | .hbm, ⟨11, _⟩ => ⟨S1x1024, .f32⟩
  | .hbm, ⟨12, _⟩ => ⟨S8192x1024, .f32⟩
  | .hbm, ⟨13, _⟩ => ⟨S8x1024x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x1024x1024_S8192x1024 : S8x1024x1024.ShapeCasts S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S8x1024x3072 : S8192x3072.ShapeCasts S8x1024x3072
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  slices_S1024x64_o0_0_S256x64 : S1024x64.Slices ![0, 0] S256x64
  reduces_S256x1024_S256 : S256x1024.Reduces [1] S256
  shapeCasts_S256_S256x1 : S256.ShapeCasts S256x1
  broadcasts_S256x1_S256x1024 : S256x1.Broadcasts S256x1024
  broadcasts_S256x1_S256x64 : S256x1.Broadcasts S256x64
  inb_S1x1024x128_S1x256x64_0_0_0 : ∀ a, (![0, 0, 0] : Fin 3 → Nat) a + S1x256x64.size a ≤ S1x1024x128.size a
  h_S1x256x64 : 0 < S1x256x64.numel
  shapeCasts_S1x256x64_S256x64 : S1x256x64.ShapeCasts S256x64
  shapeCasts_S256x64_S1x256x64 : S256x64.ShapeCasts S1x256x64
  packedbf16_S1x1024x128_S1x256x64_0_0_0 : (Rect.unit (s := S1x1024x128) ![0, 0, 0] S1x256x64.size inb_S1x1024x128_S1x256x64_0_0_0).PackedRows (EltTy.packing .bf16)
  slices_S1024x64_o256_0_S256x64 : S1024x64.Slices ![256, 0] S256x64
  inb_S1x1024x128_S1x256x64_0_256_0 : ∀ a, (![0, 256, 0] : Fin 3 → Nat) a + S1x256x64.size a ≤ S1x1024x128.size a
  packedbf16_S1x1024x128_S1x256x64_0_256_0 : (Rect.unit (s := S1x1024x128) ![0, 256, 0] S1x256x64.size inb_S1x1024x128_S1x256x64_0_256_0).PackedRows (EltTy.packing .bf16)
  slices_S1024x64_o512_0_S256x64 : S1024x64.Slices ![512, 0] S256x64
  inb_S1x1024x128_S1x256x64_0_512_0 : ∀ a, (![0, 512, 0] : Fin 3 → Nat) a + S1x256x64.size a ≤ S1x1024x128.size a
  packedbf16_S1x1024x128_S1x256x64_0_512_0 : (Rect.unit (s := S1x1024x128) ![0, 512, 0] S1x256x64.size inb_S1x1024x128_S1x256x64_0_512_0).PackedRows (EltTy.packing .bf16)
  slices_S1024x64_o768_0_S256x64 : S1024x64.Slices ![768, 0] S256x64
  inb_S1x1024x128_S1x256x64_0_768_0 : ∀ a, (![0, 768, 0] : Fin 3 → Nat) a + S1x256x64.size a ≤ S1x1024x128.size a
  packedbf16_S1x1024x128_S1x256x64_0_768_0 : (Rect.unit (s := S1x1024x128) ![0, 768, 0] S1x256x64.size inb_S1x1024x128_S1x256x64_0_768_0).PackedRows (EltTy.packing .bf16)
  inb_S1x1024x128_S1x1024x64_0_0_64 : ∀ a, (![0, 0, 64] : Fin 3 → Nat) a + S1x1024x64.size a ≤ S1x1024x128.size a
  inb_S1x1024x128_S1x256x64_0_0_64 : ∀ a, (![0, 0, 64] : Fin 3 → Nat) a + S1x256x64.size a ≤ S1x1024x128.size a
  packedbf16_S1x1024x128_S1x256x64_0_0_64 : (Rect.unit (s := S1x1024x128) ![0, 0, 64] S1x256x64.size inb_S1x1024x128_S1x256x64_0_0_64).PackedRows (EltTy.packing .bf16)
  inb_S1x1024x128_S1x256x64_0_256_64 : ∀ a, (![0, 256, 64] : Fin 3 → Nat) a + S1x256x64.size a ≤ S1x1024x128.size a
  packedbf16_S1x1024x128_S1x256x64_0_256_64 : (Rect.unit (s := S1x1024x128) ![0, 256, 64] S1x256x64.size inb_S1x1024x128_S1x256x64_0_256_64).PackedRows (EltTy.packing .bf16)
  inb_S1x1024x128_S1x256x64_0_512_64 : ∀ a, (![0, 512, 64] : Fin 3 → Nat) a + S1x256x64.size a ≤ S1x1024x128.size a
  packedbf16_S1x1024x128_S1x256x64_0_512_64 : (Rect.unit (s := S1x1024x128) ![0, 512, 64] S1x256x64.size inb_S1x1024x128_S1x256x64_0_512_64).PackedRows (EltTy.packing .bf16)
  inb_S1x1024x128_S1x256x64_0_768_64 : ∀ a, (![0, 768, 64] : Fin 3 → Nat) a + S1x256x64.size a ≤ S1x1024x128.size a
  packedbf16_S1x1024x128_S1x256x64_0_768_64 : (Rect.unit (s := S1x1024x128) ![0, 768, 64] S1x256x64.size inb_S1x1024x128_S1x256x64_0_768_64).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S8x1024x1024 : S8192x1024.ShapeCasts S8x1024x1024
  dot_S512x1024_S3072x1024_S512x3072_1_1_0_0_n_n_wf : DotDims.WF S512x1024 S3072x1024 S512x3072 [1] [1] [0] [0] [] []
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .bf16 = 32 ∨ (Rect.block (s := S8192x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x1024x3072.size a
  hwx1_0 : ∀ i : grid1.Coords, EltTy.bits .bf16 = 32 ∨ (Rect.block (s := S8x1024x3072) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x3072.size a
  hwx1_1 : ∀ i : grid1.Coords, EltTy.bits .bf16 = 32 ∨ (Rect.block (s := S8x1024x3072) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x3072.size a
  hwx1_2 : ∀ i : grid1.Coords, EltTy.bits .bf16 = 32 ∨ (Rect.block (s := S8x1024x3072) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x1024x1024.size a
  hwx1_3 : ∀ i : grid1.Coords, EltTy.bits .bf16 = 32 ∨ (Rect.block (s := S8x1024x1024) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S8x1024x3072 : Shape := ⟨3, ![8, 1024, 3072]⟩
abbrev S8x1024x3x16x64 : Shape := ⟨5, ![8, 1024, 3, 16, 64]⟩
abbrev S8x1024x1x16x64 : Shape := ⟨5, ![8, 1024, 1, 16, 64]⟩
abbrev S8x1024x16x64 : Shape := ⟨4, ![8, 1024, 16, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8x1024x3072, .f32⟩
  | .hbm, ⟨5, _⟩ => ⟨S8x1024x3x16x64, .f32⟩
  | .hbm, ⟨6, _⟩ => ⟨S8x1024x1x16x64, .f32⟩
  | .hbm, ⟨7, _⟩ => ⟨S8x1024x16x64, .f32⟩
  | .hbm, ⟨8, _⟩ => ⟨S8x16x1024x64, .f32⟩
  | .hbm, ⟨9, _⟩ => ⟨S8x1024x1x16x64, .f32⟩
  | .hbm, ⟨10, _⟩ => ⟨S8x1024x16x64, .f32⟩
  | .hbm, ⟨11, _⟩ => ⟨S8x16x1024x64, .f32⟩
  | .hbm, ⟨12, _⟩ => ⟨S8x1024x1x16x64, .f32⟩
  | .hbm, ⟨13, _⟩ => ⟨S8x1024x16x64, .f32⟩
  | .hbm, ⟨14, _⟩ => ⟨S8x16x1024x64, .f32⟩
  | .hbm, ⟨15, _⟩ => ⟨S8x16x1024x1024, .f32⟩
  | .hbm, ⟨16, _⟩ => ⟨S_, .f32⟩
  | .hbm, ⟨17, _⟩ => ⟨S8x16x1024x1024, .f32⟩
  | .hbm, ⟨18, _⟩ => ⟨S8x16x1024x1024, .f32⟩
  | .hbm, ⟨19, _⟩ => ⟨S_, .f32⟩
  | .hbm, ⟨20, _⟩ => ⟨S8x16x1024, .f32⟩
  | .hbm, ⟨21, _⟩ => ⟨S_, .f32⟩
  | .hbm, ⟨22, _⟩ => ⟨S8x16x1024, .f32⟩
  | .hbm, ⟨23, _⟩ => ⟨S8x16x1024, .f32⟩
  | .hbm, ⟨24, _⟩ => ⟨S8x16x1024x1, .f32⟩
  | .hbm, ⟨25, _⟩ => ⟨S8x16x1024x1024, .f32⟩
  | .hbm, ⟨26, _⟩ => ⟨S8x16x1024x1024, .f32⟩
  | .hbm, ⟨27, _⟩ => ⟨S8x16x1024x1024, .f32⟩
  | .hbm, ⟨28, _⟩ => ⟨S_, .f32⟩
  | .hbm, ⟨29, _⟩ => ⟨S8x16x1024, .f32⟩
  | .hbm, ⟨30, _⟩ => ⟨S8x16x1024x1, .f32⟩
  | .hbm, ⟨31, _⟩ => ⟨S8x16x1024x1024, .f32⟩
  | .hbm, ⟨32, _⟩ => ⟨S8x16x1024x1024, .f32⟩
  | .hbm, ⟨33, _⟩ => ⟨S8x16x1024x64, .f32⟩
  | .hbm, ⟨34, _⟩ => ⟨S8x1024x16x64, .f32⟩
  | .hbm, ⟨35, _⟩ => ⟨S8x1024x1024, .f32⟩
  | .hbm, ⟨36, _⟩ => ⟨S8x1024x1024, .f32⟩
  | .hbm, ⟨37, _⟩ => ⟨S1x1x1024, .f32⟩
  | .hbm, ⟨38, _⟩ => ⟨S8x1024x1024, .f32⟩
  | .hbm, ⟨39, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  shapeCasts_S8x1024x3072_S8x1024x3x16x64 : S8x1024x3072.ShapeCasts S8x1024x3x16x64
  slices_S8x1024x3x16x64_S8x1024x1x16x64_0_0_0_0_0 : S8x1024x3x16x64.Slices ![0, 0, 0, 0, 0] S8x1024x1x16x64
  shapeCasts_S8x1024x1x16x64_S8x1024x16x64 : S8x1024x1x16x64.ShapeCasts S8x1024x16x64
  transposes_S8x1024x16x64_S8x16x1024x64_0_2_1_3 : S8x1024x16x64.Transposes [0, 2, 1, 3] S8x16x1024x64
  slices_S8x1024x3x16x64_S8x1024x1x16x64_0_0_1_0_0 : S8x1024x3x16x64.Slices ![0, 0, 1, 0, 0] S8x1024x1x16x64
  slices_S8x1024x3x16x64_S8x1024x1x16x64_0_0_2_0_0 : S8x1024x3x16x64.Slices ![0, 0, 2, 0, 0] S8x1024x1x16x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S3072x1024_S8x1024x3072_2_1_01_0_n_n_wf : DotDims.WF S8x1024x1024 S3072x1024 S8x1024x3072 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_1_01_0_n_n_wf : DotDims.WF S8x1024x1024 S1024x1024 S8x1024x1024 [2] [1] [0, 1] [0] [] []

variable [Facts₀]

def dot_S8x1024x1024_S3072x1024_S8x1024x3072_2_1_01_0_n_n : DotDims S8x1024x1024 S3072x1024 S8x1024x3072 where
  lhsContracting := [2]
  rhsContracting := [1]
  lhsNonContracting := [0, 1]
  rhsNonContracting := [0]
  lhsBatch := []
  rhsBatch := []
  wf := dot_S8x1024x1024_S3072x1024_S8x1024x3072_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf

class Facts : Prop extends Facts₀ where

variable [Facts]
-- ==== Proof.KI.Share1.lean ====
/-
  Region 1's arrays among the core's unscoped buffers.

  The three input windows of custom_call 1 read ONE array, main_v3, and its output window writes main_v4. The pipeline's
  proof data holds main_v3 three times, at a half and two quarters of the full share, and main_v4 whole. At the region's
  entry the core's unscoped buffers at a valuation are split into these four points-tos and the rest; at its exit they
  are joined back, at any valuation that has main_v3 as it was, main_v4 as the write-backs left it, and agrees off the two.
-/
import proofs.«411608_j37881611550827_3_alg».proof.Proof.KI.R1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the windows' arrays are main_v3 and main_v4. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v3) ↦{fullShare} V' main_v3) ∗ (((c : Thread nD τ).loc main_v4) ↦{fullShare} V' main_v4)) := by
  unfold Pipeline.arrBufs
  exact bigSep_eq_bigSepL_of_eq [main_v3, main_v4] (by decide) (by decide) _

variable (V : (c : Dev nD) → (b : Ref sig .tc) → Buf (Elt F) ((c : Thread nD τ).loc b))

/-- The proof data's arrays, window by window: main_v3 at the half and the two quarters, main_v4 whole. -/
theorem arrays1_eq (c : Dev nD) (A : (w : Fin cfg1.W) → Buf (Elt F) ((cfg1.win w).arr.view.loc (c : Thread nD τ))) :
    ((dat1 V c).arrays A : sProp 𝕄)
      = iprop((((c : Thread nD τ).loc main_v3) ↦{(fullShare : PosShare TreeShare).left} A 0)
        ∗ (((c : Thread nD τ).loc main_v3) ↦{(fullShare : PosShare TreeShare).right.left} A 1)
        ∗ (((c : Thread nD τ).loc main_v3) ↦{(fullShare : PosShare TreeShare).right.right} A 2)
        ∗ (((c : Thread nD τ).loc main_v4) ↦{fullShare} A 3)) := by
  unfold Dat.arrays
  rw [bigSep_W1]
  rw [(arr_whole1 0).set_eq_univ, (arr_whole1 3).set_eq_univ,
    show (dat1 V c).share 0 = (fullShare : PosShare TreeShare).left from rfl,
    show (dat1 V c).share 1 = (fullShare : PosShare TreeShare).right.left from rfl,
    show (dat1 V c).share 2 = (fullShare : PosShare TreeShare).right.right from rfl,
    show (dat1 V c).share 3 = (fullShare : PosShare TreeShare) from rfl]

/-- A whole points-to at the full share is the same contents held at the half and the two quarters. -/
theorem pointsTo_thirds (ℓ : Loc nD τ sig) (f : Buf (Elt F) ℓ) :
    (ℓ ↦{fullShare} f : sProp 𝕄)
      ⊣⊢ iprop((ℓ ↦{(fullShare : PosShare TreeShare).left} f) ∗ (ℓ ↦{(fullShare : PosShare TreeShare).right.left} f)
        ∗ (ℓ ↦{(fullShare : PosShare TreeShare).right.right} f)) := by
  have h1 : (ℓ ↦{fullShare} f : sProp 𝕄) ⊣⊢ iprop((ℓ ↦{(fullShare : PosShare TreeShare).left} f) ∗ (ℓ ↦{(fullShare : PosShare TreeShare).right} f)) :=
    pointsTo_share (PosShare.mem_left_op_right (fullShare : PosShare TreeShare))
  have h2 : (ℓ ↦{(fullShare : PosShare TreeShare).right} f : sProp 𝕄)
      ⊣⊢ iprop((ℓ ↦{(fullShare : PosShare TreeShare).right.left} f) ∗ (ℓ ↦{(fullShare : PosShare TreeShare).right.right} f)) :=
    pointsTo_share (PosShare.mem_left_op_right (fullShare : PosShare TreeShare).right)
  constructor
  · iintro H
    ihave H1 := h1.1 $$ H
    icases H1 with ⟨Ha, Hr⟩
    ihave H2 := h2.1 $$ Hr
    icases H2 with ⟨Hb, Hc⟩
    isplitl [Ha]; · iexact Ha
    isplitl [Hb]; · iexact Hb
    iexact Hc
  · iintro ⟨Ha, Hb, Hc⟩
    iapply h1.2
    isplitl [Ha]; · iexact Ha
    iapply h2.2
    isplitl [Hb]; · iexact Hb
    iexact Hc

/-- ENTRY: the core's unscoped buffers at `V c` are region 1's arrays at the proof data's entry contents, and the rest. -/
theorem arrays_of_unscopedBufs1 (c : Dev nD) :
    (unscopedBufs c (V c) : sProp 𝕄) ⊢ iprop((dat1 V c).arrays ((dat1 V c).arrAt · 0) ∗ Pipeline.unscopedRest (Ix := Unit) (Name := ℕ) (U := UR sig nD τ) (Lvl := ℕ) spec1 c (V c)) := by
  have hsplit : (unscopedBufs c (V c) : sProp 𝕄)
      = iprop((Pipeline.arrBufs (Ix := Unit) (Name := ℕ) (U := UR sig nD τ) (Lvl := ℕ) spec1 c (V c) : sProp 𝕄)
        ∗ Pipeline.unscopedRest (Ix := Unit) (Name := ℕ) (U := UR sig nD τ) (Lvl := ℕ) spec1 c (V c)) :=
    Pipeline.unscopedBufs_split₀ cfgs 1 winFacts₀1.arr_unscoped c (V c)
  rw [hsplit, arrBufs1_eq, arrays1_eq]
  have h3 := (pointsTo_thirds (F := F) ((c : Thread nD τ).loc main_v3) (V c main_v3)).1
  iintro ⟨⟨H3, H4⟩, Hrest⟩
  ihave H3' := h3 $$ H3
  icases H3' with ⟨Ha, Hb, Hc⟩
  isplitr [Hrest]
  swap; · iexact Hrest
  isplitl [Ha]; · iexact Ha
  isplitl [Hb]; · iexact Hb
  isplitl [Hc]; · iexact Hc
  iexact H4

/-- EXIT: region 1's arrays as the write-backs left them and the rest at `V c` are the core's unscoped buffers at any
    valuation that has main_v3 as it was, main_v4 at the output array's final contents, and agrees with `V c` off the two. -/
theorem unscopedBufs_of_arrays1 (c : Dev nD)
    (V' : (b : Ref sig .tc) → Buf (Elt F) ((c : Thread nD τ).loc b))
    (h3 : V' main_v3 = V c main_v3) (h4 : V' main_v4 = (dat1 V c).arrAt 3 cfg1.N)
    (hrest : ∀ b, b ∉ Finset.univ.image (Pipeline.arrRef spec1) → V' b = V c b) :
    iprop((dat1 V c).arrays ((dat1 V c).arrAt · cfg1.N) ∗ Pipeline.unscopedRest (Ix := Unit) (Name := ℕ) (U := UR sig nD τ) (Lvl := ℕ) spec1 c (V c)) ⊢ (unscopedBufs c V' : sProp 𝕄) := by
  have hsplit : (unscopedBufs c V' : sProp 𝕄)
      = iprop((Pipeline.arrBufs (Ix := Unit) (Name := ℕ) (U := UR sig nD τ) (Lvl := ℕ) spec1 c V' : sProp 𝕄)
        ∗ Pipeline.unscopedRest (Ix := Unit) (Name := ℕ) (U := UR sig nD τ) (Lvl := ℕ) spec1 c V') :=
    Pipeline.unscopedBufs_split₀ cfgs 1 winFacts₀1.arr_unscoped c V'
  have hr : (Pipeline.unscopedRest (Ix := Unit) (Name := ℕ) (U := UR sig nD τ) (Lvl := ℕ) spec1 c V' : sProp 𝕄)
      = Pipeline.unscopedRest (Ix := Unit) (Name := ℕ) (U := UR sig nD τ) (Lvl := ℕ) spec1 c (V c) := by
    unfold Pipeline.unscopedRest
    exact bigSep_congr fun b hb => by rw [hrest b (Finset.mem_sdiff.mp hb).2]
  rw [hsplit, hr, arrBufs1_eq, arrays1_eq, h3, h4,
    (dat1 V c).arrAt_in 0 rfl cfg1.N, (dat1 V c).arrAt_in 1 rfl cfg1.N, (dat1 V c).arrAt_in 2 rfl cfg1.N]
  have hj := (pointsTo_thirds (F := F) ((c : Thread nD τ).loc main_v3) (V c main_v3)).2
  iintro ⟨⟨Ha, Hb, Hc, H4⟩, Hrest⟩
  isplitr [Hrest]
  swap; · iexact Hrest
  isplitr [H4]
  swap; · iexact H4
  iapply hj
  isplitl [Ha]; · iexact Ha
  isplitl [Hb]; · iexact Hb
  iexact Hc

end Cert.KernelIdeal.Fr

end
-- ==== Proof.KB.Share1.lean ====
/-
  Region 1's arrays among the core's unscoped buffers.

  The three input windows of custom_call 1 read ONE array, main_v3, and its output window writes main_v4. The pipeline's
  proof data holds main_v3 three times, at a half and two quarters of the full share, and main_v4 whole. At the region's
  entry the core's unscoped buffers at a valuation are split into these four points-tos and the rest; at its exit they
  are joined back, at any valuation that has main_v3 as it was, main_v4 as the write-backs left it, and agrees off the two.
-/
import proofs.«411608_j37881611550827_3_alg».proof.Proof.KB.R1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the windows' arrays are main_v3 and main_v4. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v3) ↦{fullShare} V' main_v3) ∗ (((c : Thread nD τ).loc main_v4) ↦{fullShare} V' main_v4)) := by
  unfold Pipeline.arrBufs
  exact bigSep_eq_bigSepL_of_eq [main_v3, main_v4] (by decide) (by decide) _

variable (V : (c : Dev nD) → (b : Ref sig .tc) → Buf (Elt F) ((c : Thread nD τ).loc b))

/-- The proof data's arrays, window by window: main_v3 at the half and the two quarters, main_v4 whole. -/
theorem arrays1_eq (c : Dev nD) (A : (w : Fin cfg1.W) → Buf (Elt F) ((cfg1.win w).arr.view.loc (c : Thread nD τ))) :
    ((dat1 V c).arrays A : sProp 𝕄)
      = iprop((((c : Thread nD τ).loc main_v3) ↦{(fullShare : PosShare TreeShare).left} A 0)
        ∗ (((c : Thread nD τ).loc main_v3) ↦{(fullShare : PosShare TreeShare).right.left} A 1)
        ∗ (((c : Thread nD τ).loc main_v3) ↦{(fullShare : PosShare TreeShare).right.right} A 2)
        ∗ (((c : Thread nD τ).loc main_v4) ↦{fullShare} A 3)) := by
  unfold Dat.arrays
  rw [bigSep_W1]
  rw [(arr_whole1 0).set_eq_univ, (arr_whole1 3).set_eq_univ,
    show (dat1 V c).share 0 = (fullShare : PosShare TreeShare).left from rfl,
    show (dat1 V c).share 1 = (fullShare : PosShare TreeShare).right.left from rfl,
    show (dat1 V c).share 2 = (fullShare : PosShare TreeShare).right.right from rfl,
    show (dat1 V c).share 3 = (fullShare : PosShare TreeShare) from rfl]

/-- A whole points-to at the full share is the same contents held at the half and the two quarters. -/
theorem pointsTo_thirds (ℓ : Loc nD τ sig) (f : Buf (Elt F) ℓ) :
    (ℓ ↦{fullShare} f : sProp 𝕄)
      ⊣⊢ iprop((ℓ ↦{(fullShare : PosShare TreeShare).left} f) ∗ (ℓ ↦{(fullShare : PosShare TreeShare).right.left} f)
        ∗ (ℓ ↦{(fullShare : PosShare TreeShare).right.right} f)) := by
  have h1 : (ℓ ↦{fullShare} f : sProp 𝕄) ⊣⊢ iprop((ℓ ↦{(fullShare : PosShare TreeShare).left} f) ∗ (ℓ ↦{(fullShare : PosShare TreeShare).right} f)) :=
    pointsTo_share (PosShare.mem_left_op_right (fullShare : PosShare TreeShare))
  have h2 : (ℓ ↦{(fullShare : PosShare TreeShare).right} f : sProp 𝕄)
      ⊣⊢ iprop((ℓ ↦{(fullShare : PosShare TreeShare).right.left} f) ∗ (ℓ ↦{(fullShare : PosShare TreeShare).right.right} f)) :=
    pointsTo_share (PosShare.mem_left_op_right (fullShare : PosShare TreeShare).right)
  constructor
  · iintro H
    ihave H1 := h1.1 $$ H
    icases H1 with ⟨Ha, Hr⟩
    ihave H2 := h2.1 $$ Hr
    icases H2 with ⟨Hb, Hc⟩
    isplitl [Ha]; · iexact Ha
    isplitl [Hb]; · iexact Hb
    iexact Hc
  · iintro ⟨Ha, Hb, Hc⟩
    iapply h1.2
    isplitl [Ha]; · iexact Ha
    iapply h2.2
    isplitl [Hb]; · iexact Hb
    iexact Hc

/-- ENTRY: the core's unscoped buffers at `V c` are region 1's arrays at the proof data's entry contents, and the rest. -/
theorem arrays_of_unscopedBufs1 (c : Dev nD) :
    (unscopedBufs c (V c) : sProp 𝕄) ⊢ iprop((dat1 V c).arrays ((dat1 V c).arrAt · 0) ∗ Pipeline.unscopedRest (Ix := Unit) (Name := ℕ) (U := UR sig nD τ) (Lvl := ℕ) spec1 c (V c)) := by
  have hsplit : (unscopedBufs c (V c) : sProp 𝕄)
      = iprop((Pipeline.arrBufs (Ix := Unit) (Name := ℕ) (U := UR sig nD τ) (Lvl := ℕ) spec1 c (V c) : sProp 𝕄)
        ∗ Pipeline.unscopedRest (Ix := Unit) (Name := ℕ) (U := UR sig nD τ) (Lvl := ℕ) spec1 c (V c)) :=
    Pipeline.unscopedBufs_split₀ cfgs 1 winFacts₀1.arr_unscoped c (V c)
  rw [hsplit, arrBufs1_eq, arrays1_eq]
  have h3 := (pointsTo_thirds (F := F) ((c : Thread nD τ).loc main_v3) (V c main_v3)).1
  iintro ⟨⟨H3, H4⟩, Hrest⟩
  ihave H3' := h3 $$ H3
  icases H3' with ⟨Ha, Hb, Hc⟩
  isplitr [Hrest]
  swap; · iexact Hrest
  isplitl [Ha]; · iexact Ha
  isplitl [Hb]; · iexact Hb
  isplitl [Hc]; · iexact Hc
  iexact H4

/-- EXIT: region 1's arrays as the write-backs left them and the rest at `V c` are the core's unscoped buffers at any
    valuation that has main_v3 as it was, main_v4 at the output array's final contents, and agrees with `V c` off the two. -/
theorem unscopedBufs_of_arrays1 (c : Dev nD)
    (V' : (b : Ref sig .tc) → Buf (Elt F) ((c : Thread nD τ).loc b))
    (h3 : V' main_v3 = V c main_v3) (h4 : V' main_v4 = (dat1 V c).arrAt 3 cfg1.N)
    (hrest : ∀ b, b ∉ Finset.univ.image (Pipeline.arrRef spec1) → V' b = V c b) :
    iprop((dat1 V c).arrays ((dat1 V c).arrAt · cfg1.N) ∗ Pipeline.unscopedRest (Ix := Unit) (Name := ℕ) (U := UR sig nD τ) (Lvl := ℕ) spec1 c (V c)) ⊢ (unscopedBufs c V' : sProp 𝕄) := by
  have hsplit : (unscopedBufs c V' : sProp 𝕄)
      = iprop((Pipeline.arrBufs (Ix := Unit) (Name := ℕ) (U := UR sig nD τ) (Lvl := ℕ) spec1 c V' : sProp 𝕄)
        ∗ Pipeline.unscopedRest (Ix := Unit) (Name := ℕ) (U := UR sig nD τ) (Lvl := ℕ) spec1 c V') :=
    Pipeline.unscopedBufs_split₀ cfgs 1 winFacts₀1.arr_unscoped c V'
  have hr : (Pipeline.unscopedRest (Ix := Unit) (Name := ℕ) (U := UR sig nD τ) (Lvl := ℕ) spec1 c V' : sProp 𝕄)
      = Pipeline.unscopedRest (Ix := Unit) (Name := ℕ) (U := UR sig nD τ) (Lvl := ℕ) spec1 c (V c) := by
    unfold Pipeline.unscopedRest
    exact bigSep_congr fun b hb => by rw [hrest b (Finset.mem_sdiff.mp hb).2]
  rw [hsplit, hr, arrBufs1_eq, arrays1_eq, h3, h4,
    (dat1 V c).arrAt_in 0 rfl cfg1.N, (dat1 V c).arrAt_in 1 rfl cfg1.N, (dat1 V c).arrAt_in 2 rfl cfg1.N]
  have hj := (pointsTo_thirds (F := F) ((c : Thread nD τ).loc main_v3) (V c main_v3)).2
  iintro ⟨⟨Ha, Hb, Hc, H4⟩, Hrest⟩
  isplitr [Hrest]
  swap; · iexact Hrest
  isplitr [H4]
  swap; · iexact H4
  iapply hj
  isplitl [Ha]; · iexact Ha
  isplitl [Hb]; · iexact Hb
  iexact Hc

end Cert.Kernel.Fr

end
-- ==== Proof.Spec.lean ====
/-
  The mathematics both programs compute, as functions of coordinates over the extended reals.

  From the input x : [8,1024,1024] and the packed projection weight W : [3072,1024] both programs form
  QKV[b,n,o] = Σ_k x[b,n,k] · W[o,k]; column o of QKV holds, for head h and lane d, the query at h·64+d, the key at
  1024 + h·64+d and the value at 2048 + h·64+d. For a head, a batch entry and a query row n the scores against the
  key rows j are s[j]; the row's softmax weights are exp (s[j] − max s) over their sum. The kernel scales the query
  by c before the score product and divides the weighted value sum by the weights' sum (attK); the reference scales
  the score product and divides each weight before the value sum (attR). The result is the attended array times the
  output weight, plus the bias (out).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨3, ![8, 1024, 1024]⟩
abbrev SWq : Shape := ⟨2, ![3072, 1024]⟩
abbrev SWp : Shape := ⟨2, ![1024, 1024]⟩
abbrev Sb : Shape := ⟨1, ![1024]⟩

/-- The packed projection x · Wᵀ at batch b, row n, column o. -/
def qkv (X : SX.Idx → EReal) (W : SWq.Idx → EReal) (b : Fin 8) (n : Fin 1024) (o : Fin 3072) : EReal :=
  ∑ k : Fin 1024, X (ix3 b n k) * W (ix2 o k)

/-- Head h, lane d: the query's, the key's and the value's column of the packed projection, and the column of the
    attended array. -/
def qcol (h : Fin 16) (d : Fin 64) : Fin 3072 := ⟨h.val * 64 + d.val, by omega⟩
def kcol (h : Fin 16) (d : Fin 64) : Fin 3072 := ⟨1024 + (h.val * 64 + d.val), by omega⟩
def vcol (h : Fin 16) (d : Fin 64) : Fin 3072 := ⟨2048 + (h.val * 64 + d.val), by omega⟩
def ocol (h : Fin 16) (d : Fin 64) : Fin 1024 := ⟨h.val * 64 + d.val, by omega⟩

/-- The neutral element the row maximum starts from: the pattern of −∞. -/
abbrev negInf : EReal := Ideal.ofBits .f32 0xFF800000#32

/-- A score row's maximum, its shifted exponentials and their sum. -/
def rowmax (s : Fin 1024 → EReal) : EReal := (Finset.univ : Finset (Fin 1024)).fold max negInf s
def pexp (s : Fin 1024 → EReal) (j : Fin 1024) : EReal := Ideal.exp (s j - rowmax s)
def denom (s : Fin 1024 → EReal) : EReal := ∑ j : Fin 1024, pexp s j

/-- The kernel's score of query row n against key row j: the query scaled by c first. -/
def scoreK (c : EReal) (Q : Fin 8 → Fin 1024 → Fin 3072 → EReal) (b : Fin 8) (h : Fin 16) (n j : Fin 1024) : EReal :=
  ∑ d : Fin 64, (Q b n (qcol h d) * c) * Q b j (kcol h d)

/-- The reference's: the product scaled by c afterwards. -/
def scoreR (c : EReal) (Q : Fin 8 → Fin 1024 → Fin 3072 → EReal) (b : Fin 8) (h : Fin 16) (n j : Fin 1024) : EReal :=
  (∑ d : Fin 64, Q b n (qcol h d) * Q b j (kcol h d)) * c

/-- The kernel's attended value: the weighted value sum divided by the weights' sum. -/
def attK (c : EReal) (Q : Fin 8 → Fin 1024 → Fin 3072 → EReal) (b : Fin 8) (n : Fin 1024) (h : Fin 16) (d : Fin 64) : EReal :=
  Ideal.div (∑ j : Fin 1024, pexp (scoreK c Q b h n) j * Q b j (vcol h d)) (denom (scoreK c Q b h n))

/-- The reference's: each weight divided by the sum, then the value sum. -/
def attR (c : EReal) (Q : Fin 8 → Fin 1024 → Fin 3072 → EReal) (b : Fin 8) (n : Fin 1024) (h : Fin 16) (d : Fin 64) : EReal :=
  ∑ j : Fin 1024, Ideal.div (pexp (scoreR c Q b h n) j) (denom (scoreR c Q b h n)) * Q b j (vcol h d)

/-- An attended array [8,1024,16,64] laid out as [8,1024,1024]: column k is head k / 64, lane k % 64. -/
def merge (A : Fin 8 → Fin 1024 → Fin 16 → Fin 64 → EReal) (b : Fin 8) (n : Fin 1024) (k : Fin 1024) : EReal :=
  A b n ⟨k.val / 64, by omega⟩ ⟨k.val % 64, by omega⟩

/-- The output projection a · Wᵀ + bias at batch b, row n, column o. -/
def out (A : Fin 8 → Fin 1024 → Fin 1024 → EReal) (Wp : SWp.Idx → EReal) (bp : Sb.Idx → EReal)
    (b : Fin 8) (n : Fin 1024) (o : Fin 1024) : EReal :=
  (∑ k : Fin 1024, A b n k * Wp (ix2 o k)) + bp (ix1 o)

/-- The kernel's whole result and the reference's, from the four inputs and each side's scale. -/
def resK (c : EReal) (X : SX.Idx → EReal) (Wq : SWq.Idx → EReal) (Wp : SWp.Idx → EReal) (bp : Sb.Idx → EReal)
    (b : Fin 8) (n : Fin 1024) (o : Fin 1024) : EReal :=
  out (merge (attK c (qkv X Wq))) Wp bp b n o
def resR (c : EReal) (X : SX.Idx → EReal) (Wq : SWq.Idx → EReal) (Wp : SWp.Idx → EReal) (bp : Sb.Idx → EReal)
    (b : Fin 8) (n : Fin 1024) (o : Fin 1024) : EReal :=
  out (merge (attR c (qkv X Wq))) Wp bp b n o

end Cert.Spec

end
-- ==== Proof.Rd.lean ====
/-
  Reading a buffer of extended reals: the buffer as a function from its shape's indices.
-/
import Idealize.ShloMosaic.PureOps.Ideal
import Idealize.ShloMosaic.Lib.ValueIdx

namespace Cert.Spec

open Idealize.ShloMosaic

/-- A buffer of extended reals of shape `S`, named as the function it is. -/
abbrev rd {S : Shape} (f : S.Idx → EReal) : S.Idx → EReal := f

end Cert.Spec
-- ==== Proof.KI.Val0.lean ====
import proofs.«411608_j37881611550827_3_alg».proof.Proof.KI.R0
import proofs.«411608_j37881611550827_3_alg».proof.Proof.KI.R1
import proofs.«411608_j37881611550827_3_alg».proof.Proof.KI.R2
import proofs.«411608_j37881611550827_3_alg».proof.Proof.Spec
import Idealize.ShloMosaic.Lib.ValueIdx
import proofs.«411608_j37881611550827_3_alg».proof.Proof.Rd
import Idealize.ShloMosaic.Lib.Pipeline.Value
import Idealize.ShloMosaic.PureOps.Ideal.Laws
set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-! ### The block's product at an index

The body's one store holds the product of the input block (its format change is the identity on extended reals) with
the weight, contracted over the second axis of both: entry (p, o) is Σ_k x[p,k] · w[o,k]. The four lemmas below say
which operand coordinate each output coordinate and the contraction coordinate land on. -/

theorem lhs0_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs0_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs0_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs0_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The stored block at coordinates (p, o): row p of the input block against row o of the weight. -/
theorem pay0_apply (x : FVec Ideal S512x1024 .f32) (w : FVec Ideal S3072x1024 .bf16) (p : Fin 512) (o : Fin 3072) :
    k0_pay1 (F := Ideal) x w (ix2 p o)
      = ∑ k : Fin 1024, Cert.Spec.rd (S := S512x1024) x (ix2 p k) * Cert.Spec.rd (S := S3072x1024) w (ix2 o k) := by
  unfold k0_pay1
  simp only [shapeCast_self]
  refine (truncf_apply (ψ := .bf16) _ bitsLt_bf16_f32 (ix2 p o)).trans ?_
  refine (Ideal.matmul_constant_zero_apply dot_S512x1024_S3072x1024_S512x3072_1_1_0_0_n_n none _ _ (ix2 p o)).trans ?_
  rw [← Equiv.sum_comp (ValueIdx.contrEquiv1 dot_S512x1024_S3072x1024_S512x3072_1_1_0_0_n_n 1024 rfl rfl).symm]
  refine Finset.sum_congr rfl fun k _ => ?_
  have hk := ValueIdx.contrEquiv1_symm_val dot_S512x1024_S3072x1024_S512x3072_1_1_0_0_n_n 1024 rfl rfl k
  have el : dot_S512x1024_S3072x1024_S512x3072_1_1_0_0_n_n.lhsIdx (ix2 p o) ((ValueIdx.contrEquiv1 dot_S512x1024_S3072x1024_S512x3072_1_1_0_0_n_n 1024 rfl rfl).symm k) = ix2 p k := funext fun a => Fin.ext (by
    match a with
    | ⟨0, _⟩ => exact lhs0_0 _ _
    | ⟨1, _⟩ => exact (lhs0_1 _ _).trans hk)
  have er : dot_S512x1024_S3072x1024_S512x3072_1_1_0_0_n_n.rhsIdx (ix2 p o) ((ValueIdx.contrEquiv1 dot_S512x1024_S3072x1024_S512x3072_1_1_0_0_n_n 1024 rfl rfl).symm k) = ix2 o k := funext fun a => Fin.ext (by
    match a with
    | ⟨0, _⟩ => exact rhs0_0 _ _
    | ⟨1, _⟩ => exact (rhs0_1 _ _).trans hk)
  rw [el, er]
  rfl

/-! ### From blocks to the array

Point t's output block is rows 512·t … 512·t + 511 of the array; the input block there is the same rows of the
flattened input, and the weight's block is the whole weight. So what point t writes back is block t of one function
of the two arrays, and the sixteen blocks cover the array. -/

-- the buffer contents when the region is entered
variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- Row (j 0) of the flattened input against row (j 1) of the weight. -/
def G0 (a0 : S8192x1024.Idx → EReal) (a1 : S3072x1024.Idx → EReal) : S8192x3072.Idx → EReal := fun j =>
  ∑ k : Fin 1024, a0 (ix2 (⟨(j 0).val, idx2_lt0 j⟩ : Fin 8192) k) * a1 (ix2 (⟨(j 1).val, idx2_lt1 j⟩ : Fin 3072) k)

/-- The payload at any index of the block. -/
theorem pay0_idx (x : FVec Ideal S512x1024 .f32) (w : FVec Ideal S3072x1024 .bf16) (j : S512x3072.Idx) :
    k0_pay1 (F := Ideal) x w j
      = ∑ k : Fin 1024, Cert.Spec.rd (S := S512x1024) x (ix2 (⟨(j 0).val, idx2_lt0 j⟩ : Fin 512) k)
          * Cert.Spec.rd (S := S3072x1024) w (ix2 (⟨(j 1).val, idx2_lt1 j⟩ : Fin 3072) k) := by
  obtain ⟨p, q, rfl⟩ : ∃ (p : Fin 512) (q : Fin 3072), j = ix2 p q := ⟨j 0, j 1, eq_ix2 j⟩
  exact pay0_apply x w p q

/-- The block indices over the grid: the input's row block moves with the output's, everything else stays at 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every row block is some point's. -/
theorem idx_onto0 : ∀ (q0 : Fin 16), ∃ t : Fin cfg0.N, win0_2.index t = ![q0.val, 0] :=
  (by decide +kernel : ∀ (q0 : Fin 16), ∃ t : Fin grid0.N, win0_2.index t = ![q0.val, 0])

/-- What point t writes back is block t of G0 of the two arrays. -/
theorem flushed0_eq (c : Dev nD) (t : Fin cfg0.N) :
    (dat0 (F := Ideal) V c).flushed 2 t
      = ((cfg0.win 2).blk t).view.read (Elt Ideal) (G0 (Cert.Spec.rd (S := S8192x1024) (V c main_v0)) (Cert.Spec.rd (S := S3072x1024) (V c main_v1))) := by
  show (cfg0.win 2).cut (grid0.coords t) ((dat0 (F := Ideal) V c).after 2 t) = _
  rw [after0_2]
  unfold out0_2
  rw [View.canon_unit_zero hz]
  simp only [View.ld_unit_zero (S := S512x1024) hz, View.ld_unit_zero (S := S3072x1024) hz]
  obtain ⟨e0, e1, e2, e3, e4, e5⟩ := idx_facts0 t
  funext j
  refine (pay0_idx (iblk0 V c 0 t) (iblk0 V c 1 t) j).trans ?_
  show (∑ k : Fin 1024, Cert.Spec.rd (S := S8192x1024) (V c main_v0) (((cfg0.win 0).blk t).view.emb (ix2 (⟨(j 0).val, idx2_lt0 j⟩ : Fin 512) k))
      * Cert.Spec.rd (S := S3072x1024) (V c main_v1) (((cfg0.win 1).blk t).view.emb (ix2 (⟨(j 1).val, idx2_lt1 j⟩ : Fin 3072) k)))
    = G0 (Cert.Spec.rd (S := S8192x1024) (V c main_v0)) (Cert.Spec.rd (S := S3072x1024) (V c main_v1)) (((cfg0.win 2).blk t).view.emb j)
  unfold G0
  refine Finset.sum_congr rfl fun k _ => ?_
  have h0 : ((cfg0.win 0).blk t).view.emb (ix2 (⟨(j 0).val, idx2_lt0 j⟩ : Fin 512) k)
      = ix2 (⟨((((cfg0.win 2).blk t).view.emb j) 0).val, idx2_lt0 _⟩ : Fin 8192) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  have h1 : ((cfg0.win 1).blk t).view.emb (ix2 (⟨(j 1).val, idx2_lt1 j⟩ : Fin 3072) k)
      = ix2 (⟨((((cfg0.win 2).blk t).view.emb j) 1).val, idx2_lt1 _⟩ : Fin 3072) k := by
    funext a; apply Fin.ext
    match a with
    | ⟨0, _⟩ => show win0_1.index t (0 : Fin 2) * 3072 + 1 * (j 1).val = win0_2.index t (1 : Fin 2) * 3072 + 1 * (j 1).val; omega
    | ⟨1, _⟩ => show win0_1.index t (1 : Fin 2) * 1024 + 1 * k.val = k.val; omega
  rw [h0, h1]

/-- An index of the array is in point t's block iff each coordinate is in the block's range on its axis. -/
theorem mem_blk0 (t : Fin cfg0.N) (i : S8192x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v2).slice (win0_2.rect t)).set ↔ _
  rw [View.set_slice_whole, Rect.mem_set_unit]
  exact Iff.rfl

/-- Every index of the array is in the block of the point its row block names. -/
theorem cover0 (i : S8192x3072.Idx) :
    ∃ t : Fin cfg0.N, (cfg0.win 2).flush t = true ∧ i ∈ ((cfg0.win 2).blk t).view.set := by
  have hi0 : (i 0).val < 8192 := idx2_lt0 i
  have hi1 : (i 1).val < 3072 := idx2_lt1 i
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- The array after the run is G0 of the two arrays the region finds. -/
theorem final0 (c : Dev nD) :
    (dat0 (F := Ideal) V c).arrAt 2 cfg0.N
      = G0 (Cert.Spec.rd (S := S8192x1024) (V c main_v0)) (Cert.Spec.rd (S := S3072x1024) (V c main_v1)) :=
  (dat0 (F := Ideal) V c).arrAt_eq_of_cover 2 _ (fun t _ => flushed0_eq V c t) cover0

/-- Region 0's output array after the run: row i of the flattened input against row o of the weight. -/
theorem val0 (V : (c : Dev nD) → (b : Ref sig .tc) → Buf (Elt Ideal) ((c : Thread nD τ).loc b)) (c : Dev nD) (i : Fin 8192) (o : Fin 3072) :
    Cert.Spec.rd (S := S8192x3072) ((dat0 (F := Ideal) V c).arrAt 2 cfg0.N) (ix2 i o)
      = ∑ k : Fin 1024, Cert.Spec.rd (S := S8192x1024) (V c main_v0) (ix2 i k) * Cert.Spec.rd (S := S3072x1024) (V c main_v1) (ix2 o k) :=
  congrFun (final0 V c) (ix2 i o)

end Cert.KernelIdeal.Val

end
-- ==== Proof.KI.Val1a.lean ====
import proofs.«411608_j37881611550827_3_alg».proof.Proof.Gen.KernelIdeal.Skeleton
import proofs.«411608_j37881611550827_3_alg».proof.Proof.Spec
import Idealize.ShloMosaic.PureOps.Ideal.Laws
import Idealize.ShloMosaic.PureOps.Reduce
import Idealize.ShloMosaic.Lib.Pipeline.Value
import Idealize.ShloMosaic.Lib.ValueLayout
import Idealize.ShloMosaic.Lib.ValueIdx

/-
  One query chunk of the attention kernel, as mathematics. From a scaled query array q, a key array k and a value array
  v, all [1024,64], the chunk of 256 query rows starting at row R is computed as: scores s[r,j] = Σ_e q[R+r,e]·k[j,e];
  the row maximum; the exponentials of the scores less the row maximum; their row sum; the exponentials times v, divided
  by the row sum. Read at (r, d) this is the specification's kernel-side attended value at query row R + r.
-/

set_option maxRecDepth 16384

noncomputable section

namespace Cert.KernelIdeal.Val

open Cert.KernelIdeal Cert.KernelIdeal.Gen
open Idealize.ShloMosaic Idealize.ShloMosaic.ValueIdx Idealize.SL.Sem

/-! ## The chunk, for any float family -/

section Generic
variable {F : FTy → Type} [FloatOps F]

/-- The scores of the 256 query rows from row R on against all 1024 key rows. -/
def scores (R : ℕ) (hs : S1024x64.Slices ![R, 0] S256x64) (q k : FVec F S1024x64 .bf16) : FVec F S256x1024 .f32 :=
  matmul dot_S256x64_S1024x64_S256x1024_1_1_0_0_n_n none (extractStridedSlice S256x64 ![R, 0] q hs) k
    (constant S256x1024 .f32 0x00000000#32)

/-- Each row's maximum from −∞, repeated along the row. -/
def rowMaxB (s : FVec F S256x1024 .f32) : FVec F S256x1024 .f32 :=
  broadcastTo S256x1024
    (shapeCast S256x1 (multiReduction .maximumf [1] S256 s 0xFF800000#32 reduces_S256x1024_S256 (.inl rfl) rfl)
      shapeCasts_S256_S256x1)
    broadcasts_S256x1_S256x1024

/-- The exponentials of the entries less their row's maximum. -/
def expo (s : FVec F S256x1024 .f32) : FVec F S256x1024 .f32 := exp (subf s (rowMaxB s))

/-- Each row's sum from zero, repeated along 64 lanes. -/
def rowSumB (p : FVec F S256x1024 .f32) : FVec F S256x64 .f32 :=
  broadcastTo S256x64
    (shapeCast S256x1 (multiReduction .add [1] S256 p 0x00000000#32 reduces_S256x1024_S256 (.inl rfl) rfl)
      shapeCasts_S256_S256x1)
    broadcasts_S256x1_S256x64

/-- The chunk's attended values, [1,256,64]. -/
def chunk (R : ℕ) (hs : S1024x64.Slices ![R, 0] S256x64) (q k v : FVec F S1024x64 .bf16) : FVec F S1x256x64 .bf16 :=
  shapeCast S1x256x64
    (truncf .bf16
      (divf
        (matmul dot_S256x1024_S1024x64_S256x64_1_0_0_1_n_n none
          (truncf .bf16 (expo (scores R hs q k)) bitsLt_bf16_f32) v (constant S256x64 .f32 0x00000000#32))
        (rowSumB (expo (scores R hs q k))))
      bitsLt_bf16_f32)
    shapeCasts_S256x64_S1x256x64

/-- The eight stored values of the kernel body are chunks: of the first head's arrays at rows 0, 256, 512, 768 … -/
theorem pay4_eq (v0 v4 v6 : Vec F S1x1024x64 .bf16) :
    k1_pay4 v0 v4 v6 = chunk 0 slices_S1024x64_o0_0_S256x64 (k1_pay1 v0) (k1_pay2 v4) (k1_pay3 v6) := rfl
theorem pay8_eq (v0 v4 v6 : Vec F S1x1024x64 .bf16) :
    k1_pay8 (k1_pay6 v0 v4) (k1_pay7 v0 v4 v6)
      = chunk 256 slices_S1024x64_o256_0_S256x64 (k1_pay1 v0) (k1_pay2 v4) (k1_pay3 v6) := rfl
theorem pay9_eq (q k v : FVec F S1024x64 .bf16) :
    k1_pay9 q k v = chunk 512 slices_S1024x64_o512_0_S256x64 q k v := rfl
theorem pay10_eq (q k v : FVec F S1024x64 .bf16) :
    k1_pay10 q k v = chunk 768 slices_S1024x64_o768_0_S256x64 q k v := rfl
/-- … and of the second head's. -/
theorem pay14_eq (v0 v4 v6 : Vec F S1x1024x64 .bf16) :
    k1_pay14 v0 v4 v6 = chunk 0 slices_S1024x64_o0_0_S256x64 (k1_pay11 v0) (k1_pay12 v4) (k1_pay13 v6) := rfl
theorem pay16_eq (v0 v4 v6 : Vec F S1x1024x64 .bf16) :
    k1_pay16 (k1_pay15 v0 v4 v6)
      = chunk 256 slices_S1024x64_o256_0_S256x64 (k1_pay11 v0) (k1_pay12 v4) (k1_pay13 v6) := rfl
theorem pay17_eq (q k v : FVec F S1024x64 .bf16) :
    k1_pay17 q k v = chunk 512 slices_S1024x64_o512_0_S256x64 q k v := rfl
theorem pay18_eq (q k v : FVec F S1024x64 .bf16) :
    k1_pay18 q k v = chunk 768 slices_S1024x64_o768_0_S256x64 q k v := rfl

end Generic

/-! ## The contraction indices of the two products, axis by axis -/

theorem lhs_qk_0 (i : S256x1024.Idx) (q : dot_S256x64_S1024x64_S256x1024_1_1_0_0_n_n.contr.Idx) :
    (dot_S256x64_S1024x64_S256x1024_1_1_0_0_n_n.lhsIdx i q 0).val = (i 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem lhs_qk_1 (i : S256x1024.Idx) (q : dot_S256x64_S1024x64_S256x1024_1_1_0_0_n_n.contr.Idx) :
    (dot_S256x64_S1024x64_S256x1024_1_1_0_0_n_n.lhsIdx i q 1).val = (q ⟨0, by decide⟩).val :=
  dot_S256x64_S1024x64_S256x1024_1_1_0_0_n_n.lhsIdx_val_of_single rfl i q
theorem rhs_qk_0 (i : S256x1024.Idx) (q : dot_S256x64_S1024x64_S256x1024_1_1_0_0_n_n.contr.Idx) :
    (dot_S256x64_S1024x64_S256x1024_1_1_0_0_n_n.rhsIdx i q 0).val = (i 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem rhs_qk_1 (i : S256x1024.Idx) (q : dot_S256x64_S1024x64_S256x1024_1_1_0_0_n_n.contr.Idx) :
    (dot_S256x64_S1024x64_S256x1024_1_1_0_0_n_n.rhsIdx i q 1).val = (q ⟨0, by decide⟩).val :=
  dot_S256x64_S1024x64_S256x1024_1_1_0_0_n_n.rhsIdx_val_of_single rfl i q

theorem lhs_pv_0 (i : S256x64.Idx) (q : dot_S256x1024_S1024x64_S256x64_1_0_0_1_n_n.contr.Idx) :
    (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem lhs_pv_1 (i : S256x64.Idx) (q : dot_S256x1024_S1024x64_S256x64_1_0_0_1_n_n.contr.Idx) :
    (dot_S256x1024_S1024x64_S256x64_1_0_0_1_n_n.lhsIdx i q 1).val = (q ⟨0, by decide⟩).val :=
  dot_S256x1024_S1024x64_S256x64_1_0_0_1_n_n.lhsIdx_val_of_single rfl i q
theorem rhs_pv_0 (i : S256x64.Idx) (q : dot_S256x1024_S1024x64_S256x64_1_0_0_1_n_n.contr.Idx) :
    (dot_S256x1024_S1024x64_S256x64_1_0_0_1_n_n.rhsIdx i q 0).val = (q ⟨0, by decide⟩).val :=
  dot_S256x1024_S1024x64_S256x64_1_0_0_1_n_n.rhsIdx_val_of_single rfl i q
theorem rhs_pv_1 (i : S256x64.Idx) (q : dot_S256x1024_S1024x64_S256x64_1_0_0_1_n_n.contr.Idx) :
    (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-! ## The chunk's stages at an index, over the extended reals -/

/-- The score of query row R + r against key row j: the sum over the 64 lanes. -/
theorem scores_apply (R : ℕ) (hR : R + 256 ≤ 1024) (hs : S1024x64.Slices ![R, 0] S256x64) (q k : FVec Ideal S1024x64 .bf16)
    (r : Fin 256) (j : Fin 1024) :
    scores (F := Ideal) R hs q k (ix2 r j)
      = ∑ e : Fin 64, q (ix2 (⟨R + r.val, by omega⟩ : Fin 1024) e) * k (ix2 j e) := by
  unfold scores
  simp only [matmul]
  rw [Ideal.matmul_constant_zero_apply, ← Equiv.sum_comp (contrEquiv1 dot_S256x64_S1024x64_S256x1024_1_1_0_0_n_n 64 rfl rfl).symm]
  refine Finset.sum_congr rfl fun e _ => ?_
  have hk := contrEquiv1_symm_val dot_S256x64_S1024x64_S256x1024_1_1_0_0_n_n 64 rfl rfl e
  have el : dot_S256x64_S1024x64_S256x1024_1_1_0_0_n_n.lhsIdx (ix2 r j) ((contrEquiv1 dot_S256x64_S1024x64_S256x1024_1_1_0_0_n_n 64 rfl rfl).symm e) = ix2 r e := funext fun a => Fin.ext (by
    match a with
    | ⟨0, _⟩ => exact lhs_qk_0 _ _
    | ⟨1, _⟩ => exact (lhs_qk_1 _ _).trans hk)
  have er : dot_S256x64_S1024x64_S256x1024_1_1_0_0_n_n.rhsIdx (ix2 r j) ((contrEquiv1 dot_S256x64_S1024x64_S256x1024_1_1_0_0_n_n 64 rfl rfl).symm e) = ix2 j e := funext fun a => Fin.ext (by
    match a with
    | ⟨0, _⟩ => exact rhs_qk_0 _ _
    | ⟨1, _⟩ => exact (rhs_qk_1 _ _).trans hk)
  rw [el, er]
  refine congrArg (· * k (ix2 j e)) ?_
  refine extractStridedSlice_apply ![R, 0] q hs (ix2 r e) (ix2 (⟨R + r.val, by omega⟩ : Fin 1024) e) fun a => ?_
  match a with
  | ⟨0, _⟩ => rfl
  | ⟨1, _⟩ =>
    show e.val = 0 + e.val
    omega

/-- The weighted value sum at (r, d): the sum over the 1024 key rows. -/
theorem pv_apply (p : FVec Ideal S256x1024 .bf16) (v : FVec Ideal S1024x64 .bf16) (r : Fin 256) (d : Fin 64) :
    matmul dot_S256x1024_S1024x64_S256x64_1_0_0_1_n_n none p v (constant (F := Ideal) S256x64 .f32 0x00000000#32) (ix2 r d)
      = ∑ j : Fin 1024, p (ix2 r j) * v (ix2 j d) := by
  simp only [matmul]
  rw [Ideal.matmul_constant_zero_apply, ← Equiv.sum_comp (contrEquiv1 dot_S256x1024_S1024x64_S256x64_1_0_0_1_n_n 1024 rfl rfl).symm]
  refine Finset.sum_congr rfl fun j _ => ?_
  have hk := contrEquiv1_symm_val dot_S256x1024_S1024x64_S256x64_1_0_0_1_n_n 1024 rfl rfl j
  have el : dot_S256x1024_S1024x64_S256x64_1_0_0_1_n_n.lhsIdx (ix2 r d) ((contrEquiv1 dot_S256x1024_S1024x64_S256x64_1_0_0_1_n_n 1024 rfl rfl).symm j) = ix2 r j := funext fun a => Fin.ext (by
    match a with
    | ⟨0, _⟩ => exact lhs_pv_0 _ _
    | ⟨1, _⟩ => exact (lhs_pv_1 _ _).trans hk)
  have er : dot_S256x1024_S1024x64_S256x64_1_0_0_1_n_n.rhsIdx (ix2 r d) ((contrEquiv1 dot_S256x1024_S1024x64_S256x64_1_0_0_1_n_n 1024 rfl rfl).symm j) = ix2 j d := funext fun a => Fin.ext (by
    match a with
    | ⟨0, _⟩ => exact (rhs_pv_0 _ _).trans hk
    | ⟨1, _⟩ => exact rhs_pv_1 _ _)
  rw [el, er]

/-- Row r with the key coordinate put back is (r, k). -/
theorem lift_row (r : Fin 256) (k : Fin (S256x1024.size 1)) :
    (reduces_S256x1024_S256 : S256x1024.Reduces [1] S256).lift (ix1 r) k = ix2 r (⟨k.val, k.isLt⟩ : Fin 1024) := by
  funext c
  refine Fin.ext ?_
  match c with
  | ⟨0, _⟩ => rfl
  | ⟨1, _⟩ => rfl

/-- The repeated row maximum at (r, j) is the maximum of row r. -/
theorem rowMaxB_apply (s : FVec Ideal S256x1024 .f32) (r : Fin 256) (j : Fin 1024) :
    rowMaxB (F := Ideal) s (ix2 r j) = Cert.Spec.rowmax (fun j' : Fin 1024 => s (ix2 r j')) := by
  unfold rowMaxB
  refine (broadcastTo_apply _ broadcasts_S256x1_S256x1024 (ix2 r j) (ix2 r (0 : Fin 1)) fun a => ?_).trans ?_
  · match a with
    | ⟨0, _⟩ =>
      show r.val = if (256 : ℕ) = 1 then 0 else r.val
      rw [if_neg (by decide)]
    | ⟨1, _⟩ =>
      show (0 : ℕ) = if (1 : ℕ) = 1 then 0 else j.val
      rw [if_pos rfl]
  refine (shapeCast_apply _ shapeCasts_S256_S256x1 (ix2 r (0 : Fin 1)) (ix1 r) ?_).trans ?_
  · rw [Shape.rowMajor_val_one, Shape.rowMajor_val_two]
    show r.val = r.val * 1 + 0
    omega
  refine (Ideal.multiReduction_maximumf_single s 0xFF800000#32 reduces_S256x1024_S256 (.inl rfl) rfl (ix1 r)).trans ?_
  have hf : (s ∘ (reduces_S256x1024_S256 : S256x1024.Reduces [1] S256).lift (ix1 r))
      = fun j' : Fin 1024 => s (ix2 r j') := funext fun k => congrArg s (lift_row r k)
  rw [hf]
  rfl

/-- The repeated row sum at (r, d) is the sum of row r. -/
theorem rowSumB_apply (p : FVec Ideal S256x1024 .f32) (r : Fin 256) (d : Fin 64) :
    rowSumB (F := Ideal) p (ix2 r d) = ∑ j : Fin 1024, p (ix2 r j) := by
  unfold rowSumB
  refine (broadcastTo_apply _ broadcasts_S256x1_S256x64 (ix2 r d) (ix2 r (0 : Fin 1)) fun a => ?_).trans ?_
  · match a with
    | ⟨0, _⟩ =>
      show r.val = if (256 : ℕ) = 1 then 0 else r.val
      rw [if_neg (by decide)]
    | ⟨1, _⟩ =>
      show (0 : ℕ) = if (1 : ℕ) = 1 then 0 else d.val
      rw [if_pos rfl]
  refine (shapeCast_apply _ shapeCasts_S256_S256x1 (ix2 r (0 : Fin 1)) (ix1 r) ?_).trans ?_
  · rw [Shape.rowMajor_val_one, Shape.rowMajor_val_two]
    show r.val = r.val * 1 + 0
    omega
  refine (Ideal.multiReduction_add_single p 0x00000000#32 reduces_S256x1024_S256 (.inl rfl) rfl (ix1 r)).trans ?_
  refine (Finset.sum_congr rfl fun k _ => congrArg p (lift_row r k)).trans ?_
  rfl

/-- An exponential at (r, j) is the specification's shifted exponential of row r at j. -/
theorem expo_apply (s : FVec Ideal S256x1024 .f32) (r : Fin 256) (j : Fin 1024) :
    expo (F := Ideal) s (ix2 r j) = Cert.Spec.pexp (fun j' : Fin 1024 => s (ix2 r j')) j := by
  unfold expo
  show Ideal.exp (s (ix2 r j) - rowMaxB (F := Ideal) s (ix2 r j)) = _
  rw [rowMaxB_apply]
  rfl

/-- The chunk at (r, d), from its scores: the weighted value sum over the weights' sum. -/
theorem chunk_apply (R : ℕ) (hs : S1024x64.Slices ![R, 0] S256x64) (q k v : FVec Ideal S1024x64 .bf16)
    (u : Fin 1) (r : Fin 256) (d : Fin 64) :
    chunk (F := Ideal) R hs q k v (ix3 u r d)
      = Ideal.div (∑ j : Fin 1024, Cert.Spec.pexp (fun j' : Fin 1024 => scores (F := Ideal) R hs q k (ix2 r j')) j * v (ix2 j d))
          (Cert.Spec.denom (fun j' : Fin 1024 => scores (F := Ideal) R hs q k (ix2 r j'))) := by
  unfold chunk
  generalize scores (F := Ideal) R hs q k = S
  refine (shapeCast_ab_1ab_apply _ shapeCasts_S256x64_S1x256x64 u r d).trans ?_
  show Ideal.div
      (matmul dot_S256x1024_S1024x64_S256x64_1_0_0_1_n_n none (truncf .bf16 (expo (F := Ideal) S) bitsLt_bf16_f32) v
        (constant (F := Ideal) S256x64 .f32 0x00000000#32) (ix2 r d))
      (rowSumB (F := Ideal) (expo (F := Ideal) S) (ix2 r d)) = _
  rw [pv_apply, rowSumB_apply]
  unfold Cert.Spec.denom
  refine congrArg₂ Ideal.div (Finset.sum_congr rfl fun j _ => ?_) (Finset.sum_congr rfl fun j _ => expo_apply S r j)
  show expo (F := Ideal) S (ix2 r j) * v (ix2 j d) = _
  rw [expo_apply]

/-- With q the scaled query block of a head, k its key block and v its value block, the chunk at (r, d) is the
    specification's kernel-side attended value at query row R + r. -/
theorem chunk_attK (c : EReal) (Q : Fin 8 → Fin 1024 → Fin 3072 → EReal) (b : Fin 8) (h : Fin 16)
    (R : ℕ) (hR : R + 256 ≤ 1024) (hs : S1024x64.Slices ![R, 0] S256x64) (q k v : FVec Ideal S1024x64 .bf16)
    (hq : ∀ (n : Fin 1024) (e : Fin 64), q (ix2 n e) = Q b n (Cert.Spec.qcol h e) * c)
    (hk : ∀ (j : Fin 1024) (e : Fin 64), k (ix2 j e) = Q b j (Cert.Spec.kcol h e))
    (hv : ∀ (j : Fin 1024) (d : Fin 64), v (ix2 j d) = Q b j (Cert.Spec.vcol h d))
    (u : Fin 1) (r : Fin 256) (d : Fin 64) :
    chunk (F := Ideal) R hs q k v (ix3 u r d) = Cert.Spec.attK c Q b (⟨R + r.val, by omega⟩ : Fin 1024) h d := by
  rw [chunk_apply]
  have hsc : (fun j' : Fin 1024 => scores (F := Ideal) R hs q k (ix2 r j'))
      = Cert.Spec.scoreK c Q b h (⟨R + r.val, by omega⟩ : Fin 1024) := funext fun j' => by
    rw [scores_apply R hR]
    unfold Cert.Spec.scoreK
    exact Finset.sum_congr rfl fun e _ => by rw [hq, hk]
  rw [hsc]
  unfold Cert.Spec.attK
  exact congrArg (fun z => Ideal.div z _) (Finset.sum_congr rfl fun j _ => by rw [hv])

end Cert.KernelIdeal.Val

end
-- ==== Proof.KI.Val1.lean ====
import proofs.«411608_j37881611550827_3_alg».proof.Proof.KI.R0
import proofs.«411608_j37881611550827_3_alg».proof.Proof.KI.R1
import proofs.«411608_j37881611550827_3_alg».proof.Proof.KI.R2
import proofs.«411608_j37881611550827_3_alg».proof.Proof.Spec
import Idealize.ShloMosaic.Lib.ValueIdx
import proofs.«411608_j37881611550827_3_alg».proof.Proof.Rd
import proofs.«411608_j37881611550827_3_alg».proof.Proof.KI.Val1a
import Idealize.ShloMosaic.Lib.Pipeline.Value
import Idealize.ShloMosaic.Lib.ValueLayout
set_option maxRecDepth 16384

/-
  Region 1, the attention kernel, as one function of the packed projection it finds. At grid point (b, hp) the body
  reads lanes hp·128 … hp·128+127 of the query, key and value thirds of batch entry b and stores, for each of the two
  heads 2·hp and 2·hp+1 and each of four chunks of 256 query rows, the attended values; the eight stores tile the
  output block, and the 64 blocks tile the array. So the array ends holding, at (b, n, col), the attended value of
  head col / 64, lane col % 64.
-/

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-! ## The block a grid point leaves -/

section Block
variable (cs : EReal) (Q : Fin 8 → Fin 1024 → Fin 3072 → EReal)

/-- The attended array by natural coordinates: at batch entry bv, row n, column col the value of head col / 64 at
    lane col % 64 (zero outside the array). -/
def ga (bv n col : ℕ) : EReal :=
  if h : bv < 8 ∧ n < 1024 ∧ col < 1024 then
    Cert.Spec.attK cs Q ⟨bv, h.1⟩ ⟨n, h.2.1⟩ ⟨col / 64, by have := h.2.2; omega⟩ ⟨col % 64, by omega⟩
  else 0

theorem attK_congr {b b' : Fin 8} {n n' : Fin 1024} {h h' : Fin 16} {d d' : Fin 64}
    (hb : b.val = b'.val) (hn : n.val = n'.val) (hh : h.val = h'.val) (hd : d.val = d'.val) :
    Cert.Spec.attK cs Q b n h d = Cert.Spec.attK cs Q b' n' h' d' := by
  obtain rfl := Fin.ext hb; obtain rfl := Fin.ext hn; obtain rfl := Fin.ext hh; obtain rfl := Fin.ext hd; rfl

/-- A load of 64 lanes from lane C of a block. -/
theorem ld_lane (C : ℕ) (hC : C + 64 ≤ 128)
    (inb : ∀ a, (![0, 0, C] : Fin 3 → Nat) a + S1x1024x64.size a ≤ S1x1024x128.size a)
    (x : Vec Ideal S1x1024x128 .bf16) (u : Fin 1) (n : Fin 1024) (e : Fin 64) :
    View.ld x (Rect.unit (s := S1x1024x128) ![0, 0, C] S1x1024x64.size inb) (ix3 u n e)
      = x (ix3 (0 : Fin 1) n (⟨C + e.val, by omega⟩ : Fin 128)) := by
  show x ((Rect.unit (s := S1x1024x128) ![0, 0, C] S1x1024x64.size inb).idx (ix3 u n e)) = _
  refine congrArg x (funext fun a => Fin.ext ?_)
  match a with
  | ⟨0, _⟩ =>
    show 0 + 1 * u.val = 0
    omega
  | ⟨1, _⟩ =>
    show 0 + 1 * n.val = n.val
    omega
  | ⟨2, _⟩ =>
    show C + 1 * e.val = C + e.val
    omega

/-- The scaled query array of a head from its 64 lanes of the block. -/
theorem q_apply (x : Vec Ideal S1x1024x64 .bf16) (n : Fin 1024) (e : Fin 64) :
    k1_pay1 (F := Ideal) x (ix2 n e)
      = Cert.Spec.rd (S := S1x1024x64) x (ix3 (0 : Fin 1) n e) * Ideal.ofBits .bf16 0x3E00#16 := by
  have h1 := shapeCast_1ab_ab_apply (a := 1024) (b := 64) x shapeCasts_S1x1024x64_S1024x64 n e
  show (shapeCast S1024x64 x shapeCasts_S1x1024x64_S1024x64) (ix2 n e) * Ideal.ofBits .bf16 0x3E00#16 = _
  rw [h1]
theorem q'_apply (x : Vec Ideal S1x1024x64 .bf16) (n : Fin 1024) (e : Fin 64) :
    k1_pay11 (F := Ideal) x (ix2 n e)
      = Cert.Spec.rd (S := S1x1024x64) x (ix3 (0 : Fin 1) n e) * Ideal.ofBits .bf16 0x3E00#16 := by
  have h1 := shapeCast_1ab_ab_apply (a := 1024) (b := 64) x shapeCasts_S1x1024x64_S1024x64 n e
  show (shapeCast S1024x64 x shapeCasts_S1x1024x64_S1024x64) (ix2 n e) * Ideal.ofBits .bf16 0x3E00#16 = _
  rw [h1]
/-- The key and the value arrays of a head are its 64 lanes of their blocks. -/
theorem k_apply (x : Vec Ideal S1x1024x64 .bf16) (n : Fin 1024) (e : Fin 64) :
    k1_pay2 (F := Ideal) x (ix2 n e) = x (ix3 (0 : Fin 1) n e) :=
  shapeCast_1ab_ab_apply (a := 1024) (b := 64) x shapeCasts_S1x1024x64_S1024x64 n e
theorem v_apply (x : Vec Ideal S1x1024x64 .bf16) (n : Fin 1024) (e : Fin 64) :
    k1_pay3 (F := Ideal) x (ix2 n e) = x (ix3 (0 : Fin 1) n e) :=
  shapeCast_1ab_ab_apply (a := 1024) (b := 64) x shapeCasts_S1x1024x64_S1024x64 n e
theorem k'_apply (x : Vec Ideal S1x1024x64 .bf16) (n : Fin 1024) (e : Fin 64) :
    k1_pay12 (F := Ideal) x (ix2 n e) = x (ix3 (0 : Fin 1) n e) :=
  shapeCast_1ab_ab_apply (a := 1024) (b := 64) x shapeCasts_S1x1024x64_S1024x64 n e
theorem v'_apply (x : Vec Ideal S1x1024x64 .bf16) (n : Fin 1024) (e : Fin 64) :
    k1_pay13 (F := Ideal) x (ix2 n e) = x (ix3 (0 : Fin 1) n e) :=
  shapeCast_1ab_ab_apply (a := 1024) (b := 64) x shapeCasts_S1x1024x64_S1024x64 n e

end Block

section Pieces
variable (cs : EReal) (Q : Fin 8 → Fin 1024 → Fin 3072 → EReal) (b : Fin 8) (hp : Fin 8)

/-- One stored piece: the chunk of query rows from R of the head whose lanes start at lane C of the block, at a piece
    index, is the attended array at the index of the block the piece's rectangle puts it at. -/
theorem piece_apply (R C : ℕ) (hR : R + 256 ≤ 1024) (hC : C = 0 ∨ C = 64)
    (inb : ∀ a, (![0, R, C] : Fin 3 → Nat) a + S1x256x64.size a ≤ S1x1024x128.size a)
    (hs : S1024x64.Slices ![R, 0] S256x64) (q k v : FVec Ideal S1024x64 .bf16)
    (hq : ∀ (n : Fin 1024) (e : Fin 64), q (ix2 n e) = Q b n ⟨hp.val * 128 + (C + e.val), by have := hp.isLt; rcases hC with rfl | rfl <;> omega⟩ * cs)
    (hk : ∀ (j : Fin 1024) (e : Fin 64), k (ix2 j e) = Q b j ⟨1024 + (hp.val * 128 + (C + e.val)), by have := hp.isLt; rcases hC with rfl | rfl <;> omega⟩)
    (hv : ∀ (j : Fin 1024) (d : Fin 64), v (ix2 j d) = Q b j ⟨2048 + (hp.val * 128 + (C + d.val)), by have := hp.isLt; rcases hC with rfl | rfl <;> omega⟩)
    (x : S1x256x64.Idx) :
    chunk (F := Ideal) R hs q k v x
      = ga cs Q b.val (((Rect.unit (s := S1x1024x128) ![0, R, C] S1x256x64.size inb).emb x 1 : Fin 1024) : ℕ)
          (hp.val * 128 + (((Rect.unit (s := S1x1024x128) ![0, R, C] S1x256x64.size inb).emb x 2 : Fin 128) : ℕ)) := by
  obtain ⟨u, r, d, rfl⟩ : ∃ (u : Fin 1) (r : Fin 256) (d : Fin 64), x = ix3 u r d := ⟨x 0, x 1, x 2, eq_ix3 x⟩
  have hpl := hp.isLt
  have hh : 2 * hp.val + C / 64 < 16 := by rcases hC with rfl | rfl <;> omega
  rw [chunk_attK cs Q b (⟨2 * hp.val + C / 64, hh⟩ : Fin 16) R hR hs q k v
    (fun n e => (hq n e).trans (congrArg (fun o => Q b n o * cs) (Fin.ext (by
      show hp.val * 128 + (C + e.val) = (2 * hp.val + C / 64) * 64 + e.val
      rcases hC with rfl | rfl <;> omega))))
    (fun j e => (hk j e).trans (congrArg (Q b j) (Fin.ext (by
      show 1024 + (hp.val * 128 + (C + e.val)) = 1024 + ((2 * hp.val + C / 64) * 64 + e.val)
      rcases hC with rfl | rfl <;> omega))))
    (fun j d => (hv j d).trans (congrArg (Q b j) (Fin.ext (by
      show 2048 + (hp.val * 128 + (C + d.val)) = 2048 + ((2 * hp.val + C / 64) * 64 + d.val)
      rcases hC with rfl | rfl <;> omega))))
    u r d]
  show _ = ga cs Q b.val (R + 1 * r.val) (hp.val * 128 + (C + 1 * d.val))
  unfold ga
  rw [dif_pos ⟨b.isLt, by omega, by rcases hC with rfl | rfl <;> omega⟩]
  refine attK_congr cs Q rfl ?_ ?_ ?_
  · show R + r.val = R + 1 * r.val
    omega
  · show 2 * hp.val + C / 64 = (hp.val * 128 + (C + 1 * d.val)) / 64
    rcases hC with rfl | rfl <;> omega
  · show d.val = (hp.val * 128 + (C + 1 * d.val)) % 64
    rcases hC with rfl | rfl <;> omega

end Pieces

/-- The scale the kernel multiplies the query by: the float whose pattern is 0x3E00. -/
abbrev cK : EReal := Ideal.ofBits .bf16 0x3E00#16

section Out
variable (Q : Fin 8 → Fin 1024 → Fin 3072 → EReal) (b : Fin 8) (hp : Fin 8)

/-- THE BLOCK A POINT LEAVES. If the three input blocks hold lanes hp·128 … of the query, key and value thirds of
    batch entry b, the output block holds at (0, n, l) the attended array at (b, n, hp·128 + l). -/
theorem out1_3_apply (x0 x1 x2 : Vec Ideal S1x1024x128 .bf16)
    (hx0 : ∀ (n : Fin 1024) (l : Fin 128), Cert.Spec.rd (S := S1x1024x128) x0 (ix3 (0 : Fin 1) n l)
      = Q b n ⟨hp.val * 128 + l.val, by have := hp.isLt; omega⟩)
    (hx1 : ∀ (n : Fin 1024) (l : Fin 128), Cert.Spec.rd (S := S1x1024x128) x1 (ix3 (0 : Fin 1) n l)
      = Q b n ⟨1024 + (hp.val * 128 + l.val), by have := hp.isLt; omega⟩)
    (hx2 : ∀ (n : Fin 1024) (l : Fin 128), Cert.Spec.rd (S := S1x1024x128) x2 (ix3 (0 : Fin 1) n l)
      = Q b n ⟨2048 + (hp.val * 128 + l.val), by have := hp.isLt; omega⟩)
    (y : S1x1024x128.Idx) :
    out1_3 (F := Ideal) x0 x1 x2 y = ga cK Q b.val (y 1).val (hp.val * 128 + (y 2).val) := by
  have hq0 : ∀ (n : Fin 1024) (e : Fin 64), k1_pay1 (F := Ideal) (View.ld x0 l1_0) (ix2 n e)
      = Q b n ⟨hp.val * 128 + (0 + e.val), by have := hp.isLt; omega⟩ * cK := fun n e => by
    rw [q_apply]
    exact congrArg (· * cK) ((ld_lane 0 (by omega) _ x0 0 n e).trans (hx0 n ⟨0 + e.val, by omega⟩))
  have hk0 : ∀ (n : Fin 1024) (e : Fin 64), k1_pay2 (F := Ideal) (View.ld x1 l1_0) (ix2 n e)
      = Q b n ⟨1024 + (hp.val * 128 + (0 + e.val)), by have := hp.isLt; omega⟩ := fun n e => by
    rw [k_apply]
    exact (ld_lane 0 (by omega) _ x1 0 n e).trans (hx1 n ⟨0 + e.val, by omega⟩)
  have hv0 : ∀ (n : Fin 1024) (e : Fin 64), k1_pay3 (F := Ideal) (View.ld x2 l1_0) (ix2 n e)
      = Q b n ⟨2048 + (hp.val * 128 + (0 + e.val)), by have := hp.isLt; omega⟩ := fun n e => by
    rw [v_apply]
    exact (ld_lane 0 (by omega) _ x2 0 n e).trans (hx2 n ⟨0 + e.val, by omega⟩)
  have hq1 : ∀ (n : Fin 1024) (e : Fin 64), k1_pay11 (F := Ideal) (View.ld x0 l1_64) (ix2 n e)
      = Q b n ⟨hp.val * 128 + (64 + e.val), by have := hp.isLt; omega⟩ * cK := fun n e => by
    rw [q'_apply]
    exact congrArg (· * cK) ((ld_lane 64 (by omega) _ x0 0 n e).trans (hx0 n ⟨64 + e.val, by omega⟩))
  have hk1 : ∀ (n : Fin 1024) (e : Fin 64), k1_pay12 (F := Ideal) (View.ld x1 l1_64) (ix2 n e)
      = Q b n ⟨1024 + (hp.val * 128 + (64 + e.val)), by have := hp.isLt; omega⟩ := fun n e => by
    rw [k'_apply]
    exact (ld_lane 64 (by omega) _ x1 0 n e).trans (hx1 n ⟨64 + e.val, by omega⟩)
  have hv1 : ∀ (n : Fin 1024) (e : Fin 64), k1_pay13 (F := Ideal) (View.ld x2 l1_64) (ix2 n e)
      = Q b n ⟨2048 + (hp.val * 128 + (64 + e.val)), by have := hp.isLt; omega⟩ := fun n e => by
    rw [v'_apply]
    exact (ld_lane 64 (by omega) _ x2 0 n e).trans (hx2 n ⟨64 + e.val, by omega⟩)
  unfold out1_3
  refine View.canon_apply_of_pieces (Val := Elt Ideal) (e := .bf16)
    (fun y : S1x1024x128.Idx => (ga cK Q b.val (y 1).val (hp.val * 128 + (y 2).val) : Elt Ideal .bf16)) _ ?_ y
    (cover1_3 _ _ _ _ _ _ _ _ y)
  intro p hmem
  simp only [List.mem_cons, List.not_mem_nil, or_false] at hmem
  rcases hmem with rfl | rfl | rfl | rfl | rfl | rfl | rfl | rfl
  · intro x
    rw [pay18_eq]
    exact piece_apply cK Q b hp 768 64 (by omega) (Or.inr rfl) inb_S1x1024x128_S1x256x64_0_768_64 slices_S1024x64_o768_0_S256x64 _ _ _ hq1 hk1 hv1 x
  · intro x
    rw [pay17_eq]
    exact piece_apply cK Q b hp 512 64 (by omega) (Or.inr rfl) inb_S1x1024x128_S1x256x64_0_512_64 slices_S1024x64_o512_0_S256x64 _ _ _ hq1 hk1 hv1 x
  · intro x
    rw [pay16_eq]
    exact piece_apply cK Q b hp 256 64 (by omega) (Or.inr rfl) inb_S1x1024x128_S1x256x64_0_256_64 slices_S1024x64_o256_0_S256x64 _ _ _ hq1 hk1 hv1 x
  · intro x
    rw [pay14_eq]
    exact piece_apply cK Q b hp 0 64 (by omega) (Or.inr rfl) inb_S1x1024x128_S1x256x64_0_0_64 slices_S1024x64_o0_0_S256x64 _ _ _ hq1 hk1 hv1 x
  · intro x
    rw [pay10_eq]
    exact piece_apply cK Q b hp 768 0 (by omega) (Or.inl rfl) inb_S1x1024x128_S1x256x64_0_768_0 slices_S1024x64_o768_0_S256x64 _ _ _ hq0 hk0 hv0 x
  · intro x
    rw [pay9_eq]
    exact piece_apply cK Q b hp 512 0 (by omega) (Or.inl rfl) inb_S1x1024x128_S1x256x64_0_512_0 slices_S1024x64_o512_0_S256x64 _ _ _ hq0 hk0 hv0 x
  · intro x
    rw [pay8_eq]
    exact piece_apply cK Q b hp 256 0 (by omega) (Or.inl rfl) inb_S1x1024x128_S1x256x64_0_256_0 slices_S1024x64_o256_0_S256x64 _ _ _ hq0 hk0 hv0 x
  · intro x
    rw [pay4_eq]
    exact piece_apply cK Q b hp 0 0 (by omega) (Or.inl rfl) inb_S1x1024x128_S1x256x64_0_0_0 slices_S1024x64_o0_0_S256x64 _ _ _ hq0 hk0 hv0 x

end Out

/-! ## From the blocks to the array -/

section Array
variable (V : (c : Dev nD) → (b : Ref sig .tc) → Buf (Elt Ideal) ((c : Thread nD τ).loc b)) (c : Dev nD)

/-- The packed projection the region finds, by coordinates. -/
abbrev Qv : Fin 8 → Fin 1024 → Fin 3072 → EReal :=
  fun b n o => Cert.Spec.rd (S := S8x1024x3072) (V c main_v3) (ix3 b n o)

/-- The attended array as a function of the array index. -/
def Garr : S8x1024x1024.Idx → EReal := fun i => ga cK (Qv V c) (i 0).val (i 1).val (i 2).val

/-- The index maps at every grid point: the three input blocks sit in the same batch entry as the output
    block, at lane blocks hp, 8 + hp and 16 + hp; the output block indices stay in their ranges. -/
theorem idx_facts1 : ∀ t : Fin cfg1.N,
    win1_0.index t (0 : Fin 3) = win1_3.index t (0 : Fin 3) ∧ win1_0.index t (1 : Fin 3) = 0
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = 8 + win1_3.index t (2 : Fin 3)
    ∧ win1_2.index t (0 : Fin 3) = win1_3.index t (0 : Fin 3) ∧ win1_2.index t (1 : Fin 3) = 0
    ∧ win1_2.index t (2 : Fin 3) = 16 + win1_3.index t (2 : Fin 3)
    ∧ win1_3.index t (0 : Fin 3) < 8 ∧ win1_3.index t (1 : Fin 3) = 0 ∧ win1_3.index t (2 : Fin 3) < 8 :=
  (by decide +kernel : ∀ t : Fin grid1.N, _)

/-- Every (batch entry, lane block) is some point's output block. -/
theorem idx_onto1 : ∀ (q0 q2 : Fin 8), ∃ t : Fin cfg1.N, win1_3.index t = ![q0.val, 0, q2.val] :=
  (by decide +kernel : ∀ (q0 q2 : Fin 8), ∃ t : Fin grid1.N, win1_3.index t = ![q0.val, 0, q2.val])

/-- WHAT POINT t WRITES BACK is block t of the attended array. -/
theorem flushed1_eq (t : Fin cfg1.N) :
    (dat1 (F := Ideal) V c).flushed 3 t = ((cfg1.win 3).blk t).view.read (Elt Ideal) (Garr V c) := by
  show (cfg1.win 3).cut (grid1.coords t) ((dat1 (F := Ideal) V c).after 3 t) = _
  rw [after1_3]
  obtain ⟨e00, e01, e02, e10, e11, e12, e20, e21, e22, e30, e31, e32⟩ := idx_facts1 t
  funext y
  show out1_3 (F := Ideal) (iblk1 V c 0 t) (iblk1 V c 1 t) (iblk1 V c 2 t) y
    = Garr V c (((cfg1.win 3).blk t).view.emb y)
  refine (out1_3_apply (Qv V c) ⟨win1_3.index t (0 : Fin 3), e30⟩ ⟨win1_3.index t (2 : Fin 3), e32⟩
    (iblk1 V c 0 t) (iblk1 V c 1 t) (iblk1 V c 2 t) ?_ ?_ ?_ y).trans ?_
  · intro n l
    show Cert.Spec.rd (S := S8x1024x3072) (V c main_v3) (((cfg1.win 0).blk t).view.emb (ix3 (0 : Fin 1) n l))
      = Cert.Spec.rd (S := S8x1024x3072) (V c main_v3) (ix3 _ n _)
    refine congrArg (Cert.Spec.rd (S := S8x1024x3072) (V c main_v3)) (funext fun a => Fin.ext ?_)
    match a with
    | ⟨0, _⟩ =>
      show win1_0.index t (0 : Fin 3) * 1 + 1 * 0 = win1_3.index t (0 : Fin 3)
      omega
    | ⟨1, _⟩ =>
      show win1_0.index t (1 : Fin 3) * 1024 + 1 * n.val = n.val
      omega
    | ⟨2, _⟩ =>
      show win1_0.index t (2 : Fin 3) * 128 + 1 * l.val = win1_3.index t (2 : Fin 3) * 128 + l.val
      omega
  · intro n l
    show Cert.Spec.rd (S := S8x1024x3072) (V c main_v3) (((cfg1.win 1).blk t).view.emb (ix3 (0 : Fin 1) n l))
      = Cert.Spec.rd (S := S8x1024x3072) (V c main_v3) (ix3 _ n _)
    refine congrArg (Cert.Spec.rd (S := S8x1024x3072) (V c main_v3)) (funext fun a => Fin.ext ?_)
    match a with
    | ⟨0, _⟩ =>
      show win1_1.index t (0 : Fin 3) * 1 + 1 * 0 = win1_3.index t (0 : Fin 3)
      omega
    | ⟨1, _⟩ =>
      show win1_1.index t (1 : Fin 3) * 1024 + 1 * n.val = n.val
      omega
    | ⟨2, _⟩ =>
      show win1_1.index t (2 : Fin 3) * 128 + 1 * l.val = 1024 + (win1_3.index t (2 : Fin 3) * 128 + l.val)
      omega
  · intro n l
    show Cert.Spec.rd (S := S8x1024x3072) (V c main_v3) (((cfg1.win 2).blk t).view.emb (ix3 (0 : Fin 1) n l))
      = Cert.Spec.rd (S := S8x1024x3072) (V c main_v3) (ix3 _ n _)
    refine congrArg (Cert.Spec.rd (S := S8x1024x3072) (V c main_v3)) (funext fun a => Fin.ext ?_)
    match a with
    | ⟨0, _⟩ =>
      show win1_2.index t (0 : Fin 3) * 1 + 1 * 0 = win1_3.index t (0 : Fin 3)
      omega
    | ⟨1, _⟩ =>
      show win1_2.index t (1 : Fin 3) * 1024 + 1 * n.val = n.val
      omega
    | ⟨2, _⟩ =>
      show win1_2.index t (2 : Fin 3) * 128 + 1 * l.val = 2048 + (win1_3.index t (2 : Fin 3) * 128 + l.val)
      omega
  · show ga cK (Qv V c) (win1_3.index t (0 : Fin 3)) (y 1).val (win1_3.index t (2 : Fin 3) * 128 + (y 2).val)
      = ga cK (Qv V c) (win1_3.index t (0 : Fin 3) * 1 + 1 * (y 0).val)
          (win1_3.index t (1 : Fin 3) * 1024 + 1 * (y 1).val) (win1_3.index t (2 : Fin 3) * 128 + 1 * (y 2).val)
    have hy0 : (y 0).val < 1 := (y 0).isLt
    have h0 : win1_3.index t (0 : Fin 3) * 1 + 1 * (y 0).val = win1_3.index t (0 : Fin 3) := by omega
    have h1 : win1_3.index t (1 : Fin 3) * 1024 + 1 * (y 1).val = (y 1).val := by omega
    have h2 : win1_3.index t (2 : Fin 3) * 128 + 1 * (y 2).val = win1_3.index t (2 : Fin 3) * 128 + (y 2).val := by omega
    rw [h0, h1, h2]

/-- An index of the array is in point t's block iff each coordinate is in the block's range on its axis. -/
theorem mem_blk1 (t : Fin cfg1.N) (i : S8x1024x1024.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v4).slice (win1_3.rect t)).set ↔ _
  rw [View.set_slice_whole, Rect.mem_set_unit]
  exact Iff.rfl

/-- The 64 output blocks cover the array. -/
theorem cover1 (i : S8x1024x1024.Idx) :
    ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 1024 := (i 2).isLt
  obtain ⟨t, ht⟩ := idx_onto1 ⟨(i 0).val, hi0⟩ ⟨(i 2).val / 128, by omega⟩
  have q0 : win1_3.index t (0 : Fin 3) = (i 0).val := congrFun ht 0
  have q1 : win1_3.index t (1 : Fin 3) = 0 := congrFun ht 1
  have q2 : win1_3.index t (2 : Fin 3) = (i 2).val / 128 := congrFun ht 2
  refine ⟨t, flush1_3 t, ?_⟩
  rw [mem_blk1]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 128 ≤ (i 2).val ∧ (i 2).val < win1_3.index t (2 : Fin 3) * 128 + 128
    omega

/-- THE ARRAY after the region's run is the attended array. -/
theorem final1 : (dat1 (F := Ideal) V c).arrAt 3 cfg1.N = Garr V c :=
  (dat1 (F := Ideal) V c).arrAt_eq_of_cover 3 (Garr V c) (fun t _ => flushed1_eq V c t) cover1

end Array

/-- Region 1's output array after the run: the kernel's attended value of the packed projection the region finds. -/
theorem val1 (V : (c : Dev nD) → (b : Ref sig .tc) → Buf (Elt Ideal) ((c : Thread nD τ).loc b)) (c : Dev nD) (b : Fin 8) (n : Fin 1024) (h : Fin 16) (d : Fin 64) :
    Cert.Spec.rd (S := S8x1024x1024) ((dat1 (F := Ideal) V c).arrAt 3 cfg1.N) (ix3 b n (Cert.Spec.ocol h d))
      = Cert.Spec.attK (Ideal.ofBits .bf16 0x3E00#16) (fun b n o => Cert.Spec.rd (S := S8x1024x3072) (V c main_v3) (ix3 b n o)) b n h d := by
  rw [final1 V c]
  show ga cK (Qv V c) b.val n.val (h.val * 64 + d.val) = _
  unfold ga
  have hh := h.isLt
  have hd := d.isLt
  rw [dif_pos ⟨b.isLt, n.isLt, by omega⟩]
  refine attK_congr cK (Qv V c) rfl rfl ?_ ?_
  · show (h.val * 64 + d.val) / 64 = h.val
    omega
  · show (h.val * 64 + d.val) % 64 = d.val
    omega

end Cert.KernelIdeal.Val

end
-- ==== Proof.KI.Val2.lean ====
import proofs.«411608_j37881611550827_3_alg».proof.Proof.KI.R0
import proofs.«411608_j37881611550827_3_alg».proof.Proof.KI.R1
import proofs.«411608_j37881611550827_3_alg».proof.Proof.KI.R2
import proofs.«411608_j37881611550827_3_alg».proof.Proof.Spec
import Idealize.ShloMosaic.Lib.ValueIdx
import proofs.«411608_j37881611550827_3_alg».proof.Proof.Rd
import Idealize.ShloMosaic.Lib.Pipeline.Value
import Idealize.ShloMosaic.Lib.ValueLayout
import Idealize.ShloMosaic.PureOps.Ideal.Laws
set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-! ### The block's value at an index

The body's one store holds the product of the attended block with the output weight, contracted over the second axis
of both, plus the bias row laid along every row: entry (p, o) is Σ_k x[p,k] · w[o,k] + b[0,o]. The four lemmas below
say which operand coordinate each output coordinate and the contraction coordinate land on. -/

theorem lhs2_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs2_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs2_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs2_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product part of the stored block at coordinates (p, o). -/
theorem mm2_apply (x : FVec Ideal S1024x1024 .bf16) (w : FVec Ideal S1024x1024 .bf16) (p o : Fin 1024) :
    matmul dot_S1024x1024_S1024x1024_S1024x1024_1_1_0_0_n_n none x w (constant (F := Ideal) S1024x1024 .f32 0x00000000#32) (ix2 p o)
      = ∑ k : Fin 1024, Cert.Spec.rd (S := S1024x1024) x (ix2 p k) * Cert.Spec.rd (S := S1024x1024) w (ix2 o k) := by
  refine (Ideal.matmul_constant_zero_apply dot_S1024x1024_S1024x1024_S1024x1024_1_1_0_0_n_n none _ _ (ix2 p o)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p o) ((ValueIdx.contrEquiv1 dot_S1024x1024_S1024x1024_S1024x1024_1_1_0_0_n_n 1024 rfl rfl).symm k) = ix2 p k := funext fun a => Fin.ext (by
    match a with
    | ⟨0, _⟩ => exact lhs2_0 _ _
    | ⟨1, _⟩ => exact (lhs2_1 _ _).trans hk)
  have er : dot_S1024x1024_S1024x1024_S1024x1024_1_1_0_0_n_n.rhsIdx (ix2 p o) ((ValueIdx.contrEquiv1 dot_S1024x1024_S1024x1024_S1024x1024_1_1_0_0_n_n 1024 rfl rfl).symm k) = ix2 o k := funext fun a => Fin.ext (by
    match a with
    | ⟨0, _⟩ => exact rhs2_0 _ _
    | ⟨1, _⟩ => exact (rhs2_1 _ _).trans hk)
  rw [el, er]

/-- The stored block at coordinates (p, o): row p of the attended block against row o of the weight, plus the bias at o. -/
theorem pay2_apply (x : FVec Ideal S1024x1024 .bf16) (w : FVec Ideal S1024x1024 .bf16) (b : FVec Ideal S1x1024 .f32) (p o : Fin 1024) :
    k2_pay1 (F := Ideal) x w b (ix2 p o)
      = (∑ k : Fin 1024, Cert.Spec.rd (S := S1024x1024) x (ix2 p k) * Cert.Spec.rd (S := S1024x1024) w (ix2 o k))
        + Cert.Spec.rd (S := S1x1024) b (ix2 (0 : Fin 1) o) := by
  unfold k2_pay1
  simp only [shapeCast_self]
  refine (addf_apply _ _ (ix2 p o)).trans ?_
  refine congrArg₂ (· + ·) (mm2_apply x w p o) ?_
  exact broadcastTo_1b_ab_apply b broadcasts_S1x1024_S1024x1024 p o

/-! ### From blocks to the array

Point t's output block is rows 1024·t … 1024·t + 1023 of the array; the attended block there is the same rows of the
flattened attended array, and the weight's and the bias's blocks are the whole arrays. So what point t writes back is
block t of one function of the three arrays, and the eight blocks cover the array. -/

-- the buffer contents when the region is entered
variable (V : (c : Dev nD) → (b : Ref sig .tc) → Buf (Elt Ideal) ((c : Thread nD τ).loc b))

/-- The zero offsets, however spelt. -/
theorem hz2 : (![0, 0] : Fin 2 → Nat) = fun _ => 0 := funext fun a => by fin_cases a <;> rfl

/-- Row (j 0) of the flattened attended array against row (j 1) of the weight, plus the bias at (j 1). -/
def G2 (a0 : S8192x1024.Idx → EReal) (a1 : S1024x1024.Idx → EReal) (a2 : S1x1024.Idx → EReal) : S8192x1024.Idx → EReal := fun j =>
  (∑ k : Fin 1024, a0 (ix2 (⟨(j 0).val, idx2_lt0 j⟩ : Fin 8192) k) * a1 (ix2 (⟨(j 1).val, idx2_lt1 j⟩ : Fin 1024) k))
    + a2 (ix2 (0 : Fin 1) (⟨(j 1).val, idx2_lt1 j⟩ : Fin 1024))

/-- The payload at any index of the block. -/
theorem pay2_idx (x : FVec Ideal S1024x1024 .bf16) (w : FVec Ideal S1024x1024 .bf16) (b : FVec Ideal S1x1024 .f32) (j : S1024x1024.Idx) :
    k2_pay1 (F := Ideal) x w b j
      = (∑ k : Fin 1024, Cert.Spec.rd (S := S1024x1024) x (ix2 (⟨(j 0).val, idx2_lt0 j⟩ : Fin 1024) k)
          * Cert.Spec.rd (S := S1024x1024) w (ix2 (⟨(j 1).val, idx2_lt1 j⟩ : Fin 1024) k))
        + Cert.Spec.rd (S := S1x1024) b (ix2 (0 : Fin 1) (⟨(j 1).val, idx2_lt1 j⟩ : Fin 1024)) := by
  obtain ⟨p, q, rfl⟩ : ∃ (p : Fin 1024) (q : Fin 1024), j = ix2 p q := ⟨j 0, j 1, eq_ix2 j⟩
  exact pay2_apply x w b p q

/-- The block indices over the grid: the attended array's row block moves with the output's, everything else stays at 0. -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 7 :=
  (by decide +kernel : ∀ t : Fin grid2.N, _)

/-- Every row block is some point's. -/
theorem idx_onto2 : ∀ (q0 : Fin 8), ∃ t : Fin cfg2.N, win2_3.index t = ![q0.val, 0] :=
  (by decide +kernel : ∀ (q0 : Fin 8), ∃ t : Fin grid2.N, win2_3.index t = ![q0.val, 0])

/-- What point t writes back is block t of G2 of the three arrays. -/
theorem flushed2_eq (c : Dev nD) (t : Fin cfg2.N) :
    (dat2 (F := Ideal) V c).flushed 3 t
      = ((cfg2.win 3).blk t).view.read (Elt Ideal) (G2 (Cert.Spec.rd (S := S8192x1024) (V c main_v5)) (Cert.Spec.rd (S := S1024x1024) (V c main_v6)) (Cert.Spec.rd (S := S1x1024) (V c main_v7))) := by
  show (cfg2.win 3).cut (grid2.coords t) ((dat2 (F := Ideal) V c).after 3 t) = _
  rw [after2_3]
  unfold out2_3
  rw [View.canon_unit_zero hz2]
  simp only [View.ld_unit_zero (S := S1024x1024) hz2, View.ld_unit_zero (S := S1x1024) hz2]
  obtain ⟨e0, e1, e2, e3, e4, e5, e6, e7⟩ := idx_facts2 t
  funext j
  refine (pay2_idx (iblk2 V c 0 t) (iblk2 V c 1 t) (iblk2 V c 2 t) j).trans ?_
  show (∑ k : Fin 1024, Cert.Spec.rd (S := S8192x1024) (V c main_v5) (((cfg2.win 0).blk t).view.emb (ix2 (⟨(j 0).val, idx2_lt0 j⟩ : Fin 1024) k))
        * Cert.Spec.rd (S := S1024x1024) (V c main_v6) (((cfg2.win 1).blk t).view.emb (ix2 (⟨(j 1).val, idx2_lt1 j⟩ : Fin 1024) k)))
      + Cert.Spec.rd (S := S1x1024) (V c main_v7) (((cfg2.win 2).blk t).view.emb (ix2 (0 : Fin 1) (⟨(j 1).val, idx2_lt1 j⟩ : Fin 1024)))
    = G2 (Cert.Spec.rd (S := S8192x1024) (V c main_v5)) (Cert.Spec.rd (S := S1024x1024) (V c main_v6)) (Cert.Spec.rd (S := S1x1024) (V c main_v7)) (((cfg2.win 3).blk t).view.emb j)
  unfold G2
  have h2 : ((cfg2.win 2).blk t).view.emb (ix2 (0 : Fin 1) (⟨(j 1).val, idx2_lt1 j⟩ : Fin 1024))
      = ix2 (0 : Fin 1) (⟨((((cfg2.win 3).blk t).view.emb j) 1).val, idx2_lt1 _⟩ : Fin 1024) := by
    funext a; apply Fin.ext
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega
  rw [h2]
  refine congrArg (· + _) (Finset.sum_congr rfl fun k _ => ?_)
  have h0 : ((cfg2.win 0).blk t).view.emb (ix2 (⟨(j 0).val, idx2_lt0 j⟩ : Fin 1024) k)
      = ix2 (⟨((((cfg2.win 3).blk t).view.emb j) 0).val, idx2_lt0 _⟩ : Fin 8192) k := by
    funext a; apply Fin.ext
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 1024 + 1 * k.val = k.val; omega
  have h1 : ((cfg2.win 1).blk t).view.emb (ix2 (⟨(j 1).val, idx2_lt1 j⟩ : Fin 1024) k)
      = ix2 (⟨((((cfg2.win 3).blk t).view.emb j) 1).val, idx2_lt1 _⟩ : Fin 1024) k := by
    funext a; apply Fin.ext
    match a with
    | ⟨0, _⟩ => show win2_1.index t (0 : Fin 2) * 1024 + 1 * (j 1).val = win2_3.index t (1 : Fin 2) * 1024 + 1 * (j 1).val; omega
    | ⟨1, _⟩ => show win2_1.index t (1 : Fin 2) * 1024 + 1 * k.val = k.val; omega
  rw [h0, h1]

/-- An index of the array is in point t's block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v8).slice (win2_3.rect t)).set ↔ _
  rw [View.set_slice_whole, Rect.mem_set_unit]
  exact Iff.rfl

/-- Every index of the array is in the block of the point its row block names. -/
theorem cover2 (i : S8192x1024.Idx) :
    ∃ t : Fin cfg2.N, (cfg2.win 3).flush t = true ∧ i ∈ ((cfg2.win 3).blk t).view.set := by
  have hi0 : (i 0).val < 8192 := idx2_lt0 i
  have hi1 : (i 1).val < 1024 := idx2_lt1 i
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The array after the run is G2 of the three arrays the region finds. -/
theorem final2 (c : Dev nD) :
    (dat2 (F := Ideal) V c).arrAt 3 cfg2.N
      = G2 (Cert.Spec.rd (S := S8192x1024) (V c main_v5)) (Cert.Spec.rd (S := S1024x1024) (V c main_v6)) (Cert.Spec.rd (S := S1x1024) (V c main_v7)) :=
  (dat2 (F := Ideal) V c).arrAt_eq_of_cover 3 _ (fun t _ => flushed2_eq V c t) cover2

/-- Region 2's output array after the run: row i of the flattened attended array against row o of the weight, plus the bias. -/
theorem val2 (V : (c : Dev nD) → (b : Ref sig .tc) → Buf (Elt Ideal) ((c : Thread nD τ).loc b)) (c : Dev nD) (i : Fin 8192) (o : Fin 1024) :
    Cert.Spec.rd (S := S8192x1024) ((dat2 (F := Ideal) V c).arrAt 3 cfg2.N) (ix2 i o)
      = (∑ k : Fin 1024, Cert.Spec.rd (S := S8192x1024) (V c main_v5) (ix2 i k) * Cert.Spec.rd (S := S1024x1024) (V c main_v6) (ix2 o k))
        + Cert.Spec.rd (S := S1x1024) (V c main_v7) (ix2 (0 : Fin 1) o) :=
  congrFun (final2 V c) (ix2 i o)

end Cert.KernelIdeal.Val

end
-- ==== Proof.KI.Glue.lean ====
/-
  The kernel program's whole result as a function of its four inputs.

  Between the three regions the program only re-reads arrays under another shape or in another format. Row i of a
  [8192, c] array is row (i / 1024, i % 1024) of the [8, 1024, c] array with the same entries in row-major order, so
  entry (b, n, o) of the one is entry (b·1024 + n, o) of the other; a change of format leaves every entry as it is; a
  [1024] vector read as [1, 1024] has entry (0, o) equal to entry o. With these, region 0's product of the flattened input
  with the packed weight is the packed projection, region 1's output is the attended array of that projection with
  column k holding head k / 64, lane k % 64, and region 2's product with the output weight plus the bias, read back
  under three axes, is the specification's result.
-/
import proofs.«411608_j37881611550827_3_alg».proof.Proof.KI.Fold
import proofs.«411608_j37881611550827_3_alg».proof.Proof.KI.Val0
import proofs.«411608_j37881611550827_3_alg».proof.Proof.KI.Val1
import proofs.«411608_j37881611550827_3_alg».proof.Proof.KI.Val2
import proofs.«411608_j37881611550827_3_alg».proof.Proof.Spec
import proofs.«411608_j37881611550827_3_alg».proof.Proof.Rd
import Idealize.ShloMosaic.Lib.StableHlo.Run
import Idealize.ShloMosaic.Lib.Pipeline.Value
import Idealize.ShloMosaic.Lib.ValueIdx
import Idealize.ShloMosaic.Lib.ValueLayout
set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## Before region 0: the flattened input and the weight -/

/-- Row b·1024 + n of the flattened input is row (b, n) of the input. -/
theorem W1_v0 (b : Fin 8) (n : Fin 1024) (k : Fin 1024) (i : Fin 8192) (hi : i.val = b.val * 1024 + n.val) :
    Cert.Spec.rd (S := S8192x1024) (W1 (F := Ideal) m ρ c (Proc.devRef .tc main_v0)) (ix2 i k)
      = Cert.Spec.rd (S := S8x1024x1024) (m ((c.tc : Thread nD τ).loc main_arg0)) (ix3 b n k) := by
  have e : (W1 (F := Ideal) m ρ c (Proc.devRef .tc main_v0) : S8192x1024.Idx → EReal)
      = shapeCast S8192x1024 (m ((c.tc : Thread nD τ).loc main_arg0) : S8x1024x1024.Idx → EReal) shapeCasts_S8x1024x1024_S8192x1024 := by
    dsimp only [W1, W0, hostOps0]; after_results; rfl
  show (W1 (F := Ideal) m ρ c (Proc.devRef .tc main_v0) : S8192x1024.Idx → EReal) (ix2 i k) = _
  rw [e]
  refine shapeCast_apply (s := S8x1024x1024) (t := S8192x1024) _ _ (ix2 i k) (ix3 b n k) ?_
  rw [Shape.rowMajor_val_three, Shape.rowMajor_val_two]
  show (b.val * 1024 + n.val) * 1024 + k.val = i.val * 1024 + k.val
  omega

/-- The packed weight in the narrower format is the weight. -/
theorem W1_v1 (o : Fin 3072) (k : Fin 1024) :
    Cert.Spec.rd (S := S3072x1024) (W1 (F := Ideal) m ρ c (Proc.devRef .tc main_v1)) (ix2 o k)
      = Cert.Spec.rd (S := S3072x1024) (m ((c.tc : Thread nD τ).loc main_arg1)) (ix2 o k) := by
  have e : (W1 (F := Ideal) m ρ c (Proc.devRef .tc main_v1) : S3072x1024.Idx → EReal)
      = (truncf .bf16 (m ((c.tc : Thread nD τ).loc main_arg1) : FVec Ideal S3072x1024 .f32) bitsLt_bf16_f32 : FVec Ideal S3072x1024 .bf16) := by
    dsimp only [W1, W0, hostOps0]; after_results
  show (W1 (F := Ideal) m ρ c (Proc.devRef .tc main_v1) : S3072x1024.Idx → EReal) (ix2 o k) = _
  rw [e]
  exact truncf_apply _ _ _

/-! ## Region 0's output and its three-axis reading -/

/-- Region 0 leaves, at (i, o), row i of the flattened input against row o of the weight. -/
theorem W2_v2 (i : Fin 8192) (o : Fin 3072) :
    Cert.Spec.rd (S := S8192x3072) (W2 (F := Ideal) m ρ c (Proc.devRef .tc main_v2)) (ix2 i o)
      = ∑ k : Fin 1024, Cert.Spec.rd (S := S8192x1024) (W1 (F := Ideal) m ρ c (Proc.devRef .tc main_v0)) (ix2 i k)
          * Cert.Spec.rd (S := S3072x1024) (W1 (F := Ideal) m ρ c (Proc.devRef .tc main_v1)) (ix2 o k) := by
  have h : (W2 (F := Ideal) m ρ c (Proc.devRef .tc main_v2) : S8192x3072.Idx → EReal)
      = ((dat0 (F := Ideal) (V1 m ρ) c).arrAt 2 cfg0.N : S8192x3072.Idx → EReal) := W2_arr m ρ c 2
  show (W2 (F := Ideal) m ρ c (Proc.devRef .tc main_v2) : S8192x3072.Idx → EReal) (ix2 i o) = _
  rw [h]
  exact val0 (V1 m ρ) c i o

/-- Entry (b, n, o) of the three-axis reading is entry (b·1024 + n, o) of region 0's output. -/
theorem W3_v3 (b : Fin 8) (n : Fin 1024) (o : Fin 3072) (i : Fin 8192) (hi : i.val = b.val * 1024 + n.val) :
    Cert.Spec.rd (S := S8x1024x3072) (W3 (F := Ideal) m ρ c (Proc.devRef .tc main_v3)) (ix3 b n o)
      = Cert.Spec.rd (S := S8192x3072) (W2 (F := Ideal) m ρ c (Proc.devRef .tc main_v2)) (ix2 i o) := by
  have e : (W3 (F := Ideal) m ρ c (Proc.devRef .tc main_v3) : S8x1024x3072.Idx → EReal)
      = shapeCast S8x1024x3072 (W2 (F := Ideal) m ρ c (Proc.devRef .tc main_v2) : S8192x3072.Idx → EReal) shapeCasts_S8192x3072_S8x1024x3072 := by
    dsimp only [W3, hostOps1]; after_results; rfl
  show (W3 (F := Ideal) m ρ c (Proc.devRef .tc main_v3) : S8x1024x3072.Idx → EReal) (ix3 b n o) = _
  rw [e]
  refine shapeCast_apply (s := S8192x3072) (t := S8x1024x3072) _ _ (ix3 b n o) (ix2 i o) ?_
  rw [Shape.rowMajor_val_three, Shape.rowMajor_val_two]
  show i.val * 3072 + o.val = (b.val * 1024 + n.val) * 3072 + o.val
  omega

/-- What region 1 finds in its input array is the packed projection of the input. -/
theorem W3_qkv :
    (fun (b : Fin 8) (n : Fin 1024) (o : Fin 3072) => Cert.Spec.rd (S := S8x1024x3072) (V3 (F := Ideal) m ρ c main_v3) (ix3 b n o))
      = Cert.Spec.qkv (m ((c.tc : Thread nD τ).loc main_arg0)) (m ((c.tc : Thread nD τ).loc main_arg1)) := by
  funext b n o
  have hi : b.val * 1024 + n.val < 8192 := by omega
  show Cert.Spec.rd (S := S8x1024x3072) (W3 (F := Ideal) m ρ c (Proc.devRef .tc main_v3)) (ix3 b n o) = _
  rw [W3_v3 m ρ c b n o ⟨b.val * 1024 + n.val, hi⟩ rfl, W2_v2]
  unfold Cert.Spec.qkv
  refine Finset.sum_congr rfl fun k _ => ?_
  rw [W1_v0 m ρ c b n k ⟨b.val * 1024 + n.val, hi⟩ rfl, W1_v1]

/-! ## Region 1's output and its flattened reading -/

/-- Region 1 leaves, at column h·64 + d, the attended value of head h, lane d. -/
theorem W4_v4 (b : Fin 8) (n : Fin 1024) (h : Fin 16) (d : Fin 64) :
    Cert.Spec.rd (S := S8x1024x1024) (W4 (F := Ideal) m ρ c (Proc.devRef .tc main_v4)) (ix3 b n (Cert.Spec.ocol h d))
      = Cert.Spec.attK (Ideal.ofBits .bf16 0x3E00#16)
          (Cert.Spec.qkv (m ((c.tc : Thread nD τ).loc main_arg0)) (m ((c.tc : Thread nD τ).loc main_arg1))) b n h d := by
  have e : (W4 (F := Ideal) m ρ c (Proc.devRef .tc main_v4) : S8x1024x1024.Idx → EReal)
      = ((dat1 (F := Ideal) (V3 m ρ) c).arrAt 3 cfg1.N : S8x1024x1024.Idx → EReal) := W4_out m ρ c
  show (W4 (F := Ideal) m ρ c (Proc.devRef .tc main_v4) : S8x1024x1024.Idx → EReal) (ix3 b n (Cert.Spec.ocol h d)) = _
  rw [e, ← W3_qkv m ρ c]
  exact val1 (V3 m ρ) c b n h d

/-- Column k of the attended array is head k / 64, lane k % 64. -/
theorem W4_v4_merge (b : Fin 8) (n : Fin 1024) (k : Fin 1024) :
    Cert.Spec.rd (S := S8x1024x1024) (W4 (F := Ideal) m ρ c (Proc.devRef .tc main_v4)) (ix3 b n k)
      = Cert.Spec.merge (Cert.Spec.attK (Ideal.ofBits .bf16 0x3E00#16)
          (Cert.Spec.qkv (m ((c.tc : Thread nD τ).loc main_arg0)) (m ((c.tc : Thread nD τ).loc main_arg1)))) b n k := by
  have hk : k = Cert.Spec.ocol ⟨k.val / 64, by omega⟩ ⟨k.val % 64, by omega⟩ := by
    apply Fin.ext
    show k.val = k.val / 64 * 64 + k.val % 64
    omega
  unfold Cert.Spec.merge
  rw [← W4_v4 m ρ c b n ⟨k.val / 64, by omega⟩ ⟨k.val % 64, by omega⟩, ← hk]

/-- Entry (b·1024 + n, k) of the flattened attended array is entry (b, n, k) of region 1's output. -/
theorem W5_v5 (b : Fin 8) (n : Fin 1024) (k : Fin 1024) (i : Fin 8192) (hi : i.val = b.val * 1024 + n.val) :
    Cert.Spec.rd (S := S8192x1024) (W5 (F := Ideal) m ρ c (Proc.devRef .tc main_v5)) (ix2 i k)
      = Cert.Spec.rd (S := S8x1024x1024) (W4 (F := Ideal) m ρ c (Proc.devRef .tc main_v4)) (ix3 b n k) := by
  have e : (W5 (F := Ideal) m ρ c (Proc.devRef .tc main_v5) : S8192x1024.Idx → EReal)
      = shapeCast S8192x1024 (W4 (F := Ideal) m ρ c (Proc.devRef .tc main_v4) : S8x1024x1024.Idx → EReal) shapeCasts_S8x1024x1024_S8192x1024 := by
    dsimp only [W5, hostOps2]; after_results; rfl
  show (W5 (F := Ideal) m ρ c (Proc.devRef .tc main_v5) : S8192x1024.Idx → EReal) (ix2 i k) = _
  rw [e]
  refine shapeCast_apply (s := S8x1024x1024) (t := S8192x1024) _ _ (ix2 i k) (ix3 b n k) ?_
  rw [Shape.rowMajor_val_three, Shape.rowMajor_val_two]
  show (b.val * 1024 + n.val) * 1024 + k.val = i.val * 1024 + k.val
  omega

/-! ## The output weight and the bias: no stretch and no region before region 2 writes them -/

/-- The output weight is as launched when region 1 ends. -/
theorem W4_arg2 : W4 (F := Ideal) m ρ c (Proc.devRef .tc main_arg2) = m ((c.tc : Thread nD τ).loc main_arg2) :=
  calc W4 (F := Ideal) m ρ c (Proc.devRef .tc main_arg2)
    _ = W3 (F := Ideal) m ρ c (Proc.devRef .tc main_arg2) := W4_of_ne m ρ c main_arg2 (by decide)
    _ = W2 (F := Ideal) m ρ c (Proc.devRef .tc main_arg2) := after_keep hostOps1 _ main_arg2 (List.forall_iff_forall_mem.mp (by
          simp only [hostOps1, List.Forall, StableHlo.reshape_writes, StableHlo.unary_writes, Finset.mem_singleton]
          exact StableHlo.devRef_ne_of_ne (by decide)))
    _ = W1 (F := Ideal) m ρ c (Proc.devRef .tc main_arg2) := W2_of_ne m ρ c main_arg2 (by decide)
    _ = W0 (F := Ideal) m ρ c (Proc.devRef .tc main_arg2) := after_keep hostOps0 _ main_arg2 (List.forall_iff_forall_mem.mp (by
          simp only [hostOps0, List.Forall, StableHlo.reshape_writes, StableHlo.unary_writes, Finset.mem_singleton]
          exact ⟨StableHlo.devRef_ne_of_ne (by decide), StableHlo.devRef_ne_of_ne (by decide)⟩))
    _ = m ((c.tc : Thread nD τ).loc main_arg2) := rfl

/-- The bias is as launched when region 1 ends. -/
theorem W4_arg3 : W4 (F := Ideal) m ρ c (Proc.devRef .tc main_arg3) = m ((c.tc : Thread nD τ).loc main_arg3) :=
  calc W4 (F := Ideal) m ρ c (Proc.devRef .tc main_arg3)
    _ = W3 (F := Ideal) m ρ c (Proc.devRef .tc main_arg3) := W4_of_ne m ρ c main_arg3 (by decide)
    _ = W2 (F := Ideal) m ρ c (Proc.devRef .tc main_arg3) := after_keep hostOps1 _ main_arg3 (List.forall_iff_forall_mem.mp (by
          simp only [hostOps1, List.Forall, StableHlo.reshape_writes, StableHlo.unary_writes, Finset.mem_singleton]
          exact StableHlo.devRef_ne_of_ne (by decide)))
    _ = W1 (F := Ideal) m ρ c (Proc.devRef .tc main_arg3) := W2_of_ne m ρ c main_arg3 (by decide)
    _ = W0 (F := Ideal) m ρ c (Proc.devRef .tc main_arg3) := after_keep hostOps0 _ main_arg3 (List.forall_iff_forall_mem.mp (by
          simp only [hostOps0, List.Forall, StableHlo.reshape_writes, StableHlo.unary_writes, Finset.mem_singleton]
          exact ⟨StableHlo.devRef_ne_of_ne (by decide), StableHlo.devRef_ne_of_ne (by decide)⟩))
    _ = m ((c.tc : Thread nD τ).loc main_arg3) := rfl

/-- The output weight in the narrower format is the output weight. -/
theorem W5_v6 (o : Fin 1024) (k : Fin 1024) :
    Cert.Spec.rd (S := S1024x1024) (W5 (F := Ideal) m ρ c (Proc.devRef .tc main_v6)) (ix2 o k)
      = Cert.Spec.rd (S := S1024x1024) (m ((c.tc : Thread nD τ).loc main_arg2)) (ix2 o k) := by
  have e : (W5 (F := Ideal) m ρ c (Proc.devRef .tc main_v6) : S1024x1024.Idx → EReal)
      = (truncf .bf16 (W4 (F := Ideal) m ρ c (Proc.devRef .tc main_arg2) : FVec Ideal S1024x1024 .f32) bitsLt_bf16_f32 : FVec Ideal S1024x1024 .bf16) := by
    dsimp only [W5, hostOps2]; after_results
  show (W5 (F := Ideal) m ρ c (Proc.devRef .tc main_v6) : S1024x1024.Idx → EReal) (ix2 o k) = _
  rw [e, W4_arg2]
  exact truncf_apply _ _ _

/-- Entry (0, o) of the bias read as one row is entry o of the bias. -/
theorem W5_v7 (o : Fin 1024) :
    Cert.Spec.rd (S := S1x1024) (W5 (F := Ideal) m ρ c (Proc.devRef .tc main_v7)) (ix2 (0 : Fin 1) o)
      = Cert.Spec.rd (S := S1024) (m ((c.tc : Thread nD τ).loc main_arg3)) (ix1 o) := by
  have e : (W5 (F := Ideal) m ρ c (Proc.devRef .tc main_v7) : S1x1024.Idx → EReal)
      = shapeCast S1x1024 (W4 (F := Ideal) m ρ c (Proc.devRef .tc main_arg3) : S1024.Idx → EReal) shapeCasts_S1024_S1x1024 := by
    dsimp only [W5, hostOps2]; after_results; rfl
  show (W5 (F := Ideal) m ρ c (Proc.devRef .tc main_v7) : S1x1024.Idx → EReal) (ix2 (0 : Fin 1) o) = _
  rw [e, W4_arg3]
  refine shapeCast_apply (s := S1024) (t := S1x1024) _ _ (ix2 (0 : Fin 1) o) (ix1 o) ?_
  rw [Shape.rowMajor_val_two, Shape.rowMajor_val_one]
  show o.val = 0 * 1024 + o.val
  omega

/-! ## Region 2's output and the result -/

/-- Region 2 leaves, at (i, o), row i of the flattened attended array against row o of the output weight, plus the bias at o. -/
theorem W6_v8 (i : Fin 8192) (o : Fin 1024) :
    Cert.Spec.rd (S := S8192x1024) (W6 (F := Ideal) m ρ c (Proc.devRef .tc main_v8)) (ix2 i o)
      = (∑ k : Fin 1024, Cert.Spec.rd (S := S8192x1024) (W5 (F := Ideal) m ρ c (Proc.devRef .tc main_v5)) (ix2 i k)
            * Cert.Spec.rd (S := S1024x1024) (W5 (F := Ideal) m ρ c (Proc.devRef .tc main_v6)) (ix2 o k))
          + Cert.Spec.rd (S := S1x1024) (W5 (F := Ideal) m ρ c (Proc.devRef .tc main_v7)) (ix2 (0 : Fin 1) o) := by
  have h : (W6 (F := Ideal) m ρ c (Proc.devRef .tc main_v8) : S8192x1024.Idx → EReal)
      = ((dat2 (F := Ideal) (V5 m ρ) c).arrAt 3 cfg2.N : S8192x1024.Idx → EReal) := W6_arr m ρ c 3
  show (W6 (F := Ideal) m ρ c (Proc.devRef .tc main_v8) : S8192x1024.Idx → EReal) (ix2 i o) = _
  rw [h]
  exact val2 (V5 m ρ) c i o

/-- Entry (b, n, o) of the result is entry (b·1024 + n, o) of region 2's output. -/
theorem W7_v9 (b : Fin 8) (n : Fin 1024) (o : Fin 1024) (i : Fin 8192) (hi : i.val = b.val * 1024 + n.val) :
    Cert.Spec.rd (S := S8x1024x1024) (W7 (F := Ideal) m ρ c (Proc.devRef .tc main_v9)) (ix3 b n o)
      = Cert.Spec.rd (S := S8192x1024) (W6 (F := Ideal) m ρ c (Proc.devRef .tc main_v8)) (ix2 i o) := by
  have e : (W7 (F := Ideal) m ρ c (Proc.devRef .tc main_v9) : S8x1024x1024.Idx → EReal)
      = shapeCast S8x1024x1024 (W6 (F := Ideal) m ρ c (Proc.devRef .tc main_v8) : S8192x1024.Idx → EReal) shapeCasts_S8192x1024_S8x1024x1024 := by
    dsimp only [W7, hostOps3]; after_results; rfl
  show (W7 (F := Ideal) m ρ c (Proc.devRef .tc main_v9) : S8x1024x1024.Idx → EReal) (ix3 b n o) = _
  rw [e]
  refine shapeCast_apply (s := S8192x1024) (t := S8x1024x1024) _ _ (ix3 b n o) (ix2 i o) ?_
  rw [Shape.rowMajor_val_three, Shape.rowMajor_val_two]
  show i.val * 1024 + o.val = (b.val * 1024 + n.val) * 1024 + o.val
  omega

/-- The kernel program's result, read at an index, is the specification's. -/
theorem kernel_result (m : (ℓ : Loc nD τ sig) → Buf (Elt Ideal) ℓ) (ρ : Dev nD → PrngReg) (c : Dev nD) (b : Fin 8) (n : Fin 1024) (o : Fin 1024) :
    Cert.Spec.rd (S := S8x1024x1024) (W7 (F := Ideal) m ρ c (Proc.devRef .tc main_v9)) (ix3 b n o)
      = Cert.Spec.resK (Ideal.ofBits .bf16 0x3E00#16) (m ((c.tc : Thread nD τ).loc main_arg0)) (m ((c.tc : Thread nD τ).loc main_arg1))
          (m ((c.tc : Thread nD τ).loc main_arg2)) (m ((c.tc : Thread nD τ).loc main_arg3)) b n o := by
  have hi : b.val * 1024 + n.val < 8192 := by omega
  rw [W7_v9 m ρ c b n o ⟨b.val * 1024 + n.val, hi⟩ rfl, W6_v8, W5_v7]
  unfold Cert.Spec.resK Cert.Spec.out
  congr 1
  refine Finset.sum_congr rfl fun k _ => ?_
  rw [W5_v5 m ρ c b n k ⟨b.val * 1024 + n.val, hi⟩ rfl, W4_v4_merge, W5_v6]

end Cert.KernelIdeal.Val

end
-- ==== Proof.RefValue.lean ====
import proofs.«411608_j37881611550827_3_alg».proof.Proof.Gen.ReferenceIdeal.Run
import proofs.«411608_j37881611550827_3_alg».proof.Proof.Gen.ReferenceIdeal.Read
import proofs.«411608_j37881611550827_3_alg».proof.Proof.Spec
import Idealize.ShloMosaic.PureOps.Reduce
import Idealize.ShloMosaic.PureOps.Ideal
import Idealize.ShloMosaic.PureOps.Ideal.Laws
import Idealize.ShloMosaic.Lib.ValueIdx

/-
  The reference program's result, read at one index, is the specification's reference-side function of the four
  inputs. Each stage of the program is read at an index built from its coordinates: the packed projection, the three
  column blocks of it (query, key, value), the scaled score product, the row maximum, the shifted exponentials and
  their sum, the normalised weights, the weighted value sum, its heads laid side by side, and the output projection
  plus the bias.
-/

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem

variable (x : FVec Ideal S8x1024x1024 .f32) (wq : FVec Ideal S3072x1024 .f32)
  (wp : FVec Ideal S1024x1024 .f32) (bp : FVec Ideal S1024 .f32)

/-- The scale the reference multiplies the score product by: the float whose pattern is 0x3E000000. -/
abbrev cR : EReal := Ideal.ofBits .f32 0x3E000000#32

/-! ## The packed projection and its three column blocks -/

/-- The first product at (b, n, o) is the packed projection there. -/
theorem v0_read (b : Fin 8) (n : Fin 1024) (o : Fin 3072) :
    val_main_v0 (F := Ideal) x wq (ix3 b n o) = Cert.Spec.qkv x wq b n o := by
  rw [val_main_v0_apply]
  unfold Cert.Spec.qkv
  refine Finset.sum_congr rfl fun k _ => ?_
  have e1 : lidx_main_v0 (ix3 b n o) k = ix3 b n k := by
    funext a; match a with | ⟨0, _⟩ => rfl | ⟨1, _⟩ => rfl | ⟨2, _⟩ => rfl
  have e2 : ridx_main_v0 (ix3 b n o) k = ix2 o k := by
    funext a; match a with | ⟨0, _⟩ => rfl | ⟨1, _⟩ => rfl
  rw [e1, e2]

/-- Split into [8,1024,3,16,64], the element (b, n, s, h, d) is column s·1024 + h·64 + d. -/
theorem v1_read (b : Fin 8) (n : Fin 1024) (s : Fin 3) (h : Fin 16) (d : Fin 64) :
    val_main_v1 (F := Ideal) x wq (ix5 b n s h d)
      = Cert.Spec.qkv x wq b n ⟨s.val * 1024 + (h.val * 64 + d.val), by omega⟩ := by
  rw [val_main_v1_apply]
  have e : idx_main_v1 (ix5 b n s h d) = ix3 b n (⟨s.val * 1024 + (h.val * 64 + d.val), by omega⟩ : Fin 3072) := by
    funext a
    match a with
    | ⟨0, _⟩ =>
      refine Fin.ext ?_
      show ((((b.val * 1024 + n.val) * 3 + s.val) * 16 + h.val) * 64 + d.val) / 3145728 = b.val
      omega
    | ⟨1, _⟩ =>
      refine Fin.ext ?_
      show ((((b.val * 1024 + n.val) * 3 + s.val) * 16 + h.val) * 64 + d.val) / 3072 % 1024 = n.val
      omega
    | ⟨2, _⟩ =>
      refine Fin.ext ?_
      show ((((b.val * 1024 + n.val) * 3 + s.val) * 16 + h.val) * 64 + d.val) % 3072 = s.val * 1024 + (h.val * 64 + d.val)
      omega
  rw [e, v0_read]

/-- The query block as [8,1024,1,16,64]: element (b, n, 0, h, d) is column h·64 + d of the packed projection. -/
theorem v2_read (b : Fin 8) (n : Fin 1024) (z : Fin 1) (h : Fin 16) (d : Fin 64) :
    val_main_v2 (F := Ideal) x wq (ix5 b n z h d) = Cert.Spec.qkv x wq b n (Cert.Spec.qcol h d) := by
  rw [val_main_v2_apply]
  have e : idx_main_v2 (ix5 b n z h d) = ix5 b n (⟨0, by omega⟩ : Fin 3) h d := by
    funext a
    match a with
    | ⟨0, _⟩ => rfl
    | ⟨1, _⟩ => rfl
    | ⟨2, _⟩ =>
      refine Fin.ext ?_
      show z.val = 0
      omega
    | ⟨3, _⟩ => rfl
    | ⟨4, _⟩ => rfl
  rw [e, v1_read]
  refine congrArg (Cert.Spec.qkv x wq b n) (Fin.ext ?_)
  show 0 * 1024 + (h.val * 64 + d.val) = h.val * 64 + d.val
  omega

/-- The same block as [8,1024,16,64]. -/
theorem v3_read (b : Fin 8) (n : Fin 1024) (h : Fin 16) (d : Fin 64) :
    val_main_v3 (F := Ideal) x wq (ix4 b n h d) = Cert.Spec.qkv x wq b n (Cert.Spec.qcol h d) := by
  rw [val_main_v3_apply]
  have e : idx_main_v3 (ix4 b n h d) = ix5 b n (0 : Fin 1) h d := by
    funext a
    match a with
    | ⟨0, _⟩ =>
      refine Fin.ext ?_
      show (((b.val * 1024 + n.val) * 16 + h.val) * 64 + d.val) / 1048576 = b.val
      omega
    | ⟨1, _⟩ =>
      refine Fin.ext ?_
      show (((b.val * 1024 + n.val) * 16 + h.val) * 64 + d.val) / 1024 % 1024 = n.val
      omega
    | ⟨2, _⟩ => rfl
    | ⟨3, _⟩ =>
      refine Fin.ext ?_
      show (((b.val * 1024 + n.val) * 16 + h.val) * 64 + d.val) / 64 % 16 = h.val
      omega
    | ⟨4, _⟩ =>
      refine Fin.ext ?_
      show (((b.val * 1024 + n.val) * 16 + h.val) * 64 + d.val) % 64 = d.val
      omega
  rw [e, v2_read]

/-- The same block with the head axis before the row axis, [8,16,1024,64]. -/
theorem v4_read (b : Fin 8) (h : Fin 16) (n : Fin 1024) (d : Fin 64) :
    val_main_v4 (F := Ideal) x wq (ix4 b h n d) = Cert.Spec.qkv x wq b n (Cert.Spec.qcol h d) := by
  rw [val_main_v4_apply]
  have e : idx_main_v4 (ix4 b h n d) = ix4 b n h d := by
    funext a
    match a with
    | ⟨0, _⟩ => rfl
    | ⟨1, _⟩ => rfl
    | ⟨2, _⟩ => rfl
    | ⟨3, _⟩ => rfl
  rw [e, v3_read]

/-- The key block as [8,1024,1,16,64]: element (b, n, 0, h, d) is column 1024 + h·64 + d of the packed projection. -/
theorem v5_read (b : Fin 8) (n : Fin 1024) (z : Fin 1) (h : Fin 16) (d : Fin 64) :
    val_main_v5 (F := Ideal) x wq (ix5 b n z h d) = Cert.Spec.qkv x wq b n (Cert.Spec.kcol h d) := by
  rw [val_main_v5_apply]
  have e : idx_main_v5 (ix5 b n z h d) = ix5 b n (⟨1, by omega⟩ : Fin 3) h d := by
    funext a
    match a with
    | ⟨0, _⟩ => rfl
    | ⟨1, _⟩ => rfl
    | ⟨2, _⟩ =>
      refine Fin.ext ?_
      show 1 + z.val = 1
      omega
    | ⟨3, _⟩ => rfl
    | ⟨4, _⟩ => rfl
  rw [e, v1_read]
  refine congrArg (Cert.Spec.qkv x wq b n) (Fin.ext ?_)
  show 1 * 1024 + (h.val * 64 + d.val) = 1024 + (h.val * 64 + d.val)
  omega

/-- The same block as [8,1024,16,64]. -/
theorem v6_read (b : Fin 8) (n : Fin 1024) (h : Fin 16) (d : Fin 64) :
    val_main_v6 (F := Ideal) x wq (ix4 b n h d) = Cert.Spec.qkv x wq b n (Cert.Spec.kcol h d) := by
  rw [val_main_v6_apply]
  have e : idx_main_v6 (ix4 b n h d) = ix5 b n (0 : Fin 1) h d := by
    funext a
    match a with
    | ⟨0, _⟩ =>
      refine Fin.ext ?_
      show (((b.val * 1024 + n.val) * 16 + h.val) * 64 + d.val) / 1048576 = b.val
      omega
    | ⟨1, _⟩ =>
      refine Fin.ext ?_
      show (((b.val * 1024 + n.val) * 16 + h.val) * 64 + d.val) / 1024 % 1024 = n.val
      omega
    | ⟨2, _⟩ => rfl
    | ⟨3, _⟩ =>
      refine Fin.ext ?_
      show (((b.val * 1024 + n.val) * 16 + h.val) * 64 + d.val) / 64 % 16 = h.val
      omega
    | ⟨4, _⟩ =>
      refine Fin.ext ?_
      show (((b.val * 1024 + n.val) * 16 + h.val) * 64 + d.val) % 64 = d.val
      omega
  rw [e, v5_read]

/-- The same block with the head axis before the row axis, [8,16,1024,64]. -/
theorem v7_read (b : Fin 8) (h : Fin 16) (n : Fin 1024) (d : Fin 64) :
    val_main_v7 (F := Ideal) x wq (ix4 b h n d) = Cert.Spec.qkv x wq b n (Cert.Spec.kcol h d) := by
  rw [val_main_v7_apply]
  have e : idx_main_v7 (ix4 b h n d) = ix4 b n h d := by
    funext a
    match a with
    | ⟨0, _⟩ => rfl
    | ⟨1, _⟩ => rfl
    | ⟨2, _⟩ => rfl
    | ⟨3, _⟩ => rfl
  rw [e, v6_read]

/-- The value block as [8,1024,1,16,64]: element (b, n, 0, h, d) is column 2048 + h·64 + d of the packed projection. -/
theorem v8_read (b : Fin 8) (n : Fin 1024) (z : Fin 1) (h : Fin 16) (d : Fin 64) :
    val_main_v8 (F := Ideal) x wq (ix5 b n z h d) = Cert.Spec.qkv x wq b n (Cert.Spec.vcol h d) := by
  rw [val_main_v8_apply]
  have e : idx_main_v8 (ix5 b n z h d) = ix5 b n (⟨2, by omega⟩ : Fin 3) h d := by
    funext a
    match a with
    | ⟨0, _⟩ => rfl
    | ⟨1, _⟩ => rfl
    | ⟨2, _⟩ =>
      refine Fin.ext ?_
      show 2 + z.val = 2
      omega
    | ⟨3, _⟩ => rfl
    | ⟨4, _⟩ => rfl
  rw [e, v1_read]
  refine congrArg (Cert.Spec.qkv x wq b n) (Fin.ext ?_)
  show 2 * 1024 + (h.val * 64 + d.val) = 2048 + (h.val * 64 + d.val)
  omega

/-- The same block as [8,1024,16,64]. -/
theorem v9_read (b : Fin 8) (n : Fin 1024) (h : Fin 16) (d : Fin 64) :
    val_main_v9 (F := Ideal) x wq (ix4 b n h d) = Cert.Spec.qkv x wq b n (Cert.Spec.vcol h d) := by
  rw [val_main_v9_apply]
  have e : idx_main_v9 (ix4 b n h d) = ix5 b n (0 : Fin 1) h d := by
    funext a
    match a with
    | ⟨0, _⟩ =>
      refine Fin.ext ?_
      show (((b.val * 1024 + n.val) * 16 + h.val) * 64 + d.val) / 1048576 = b.val
      omega
    | ⟨1, _⟩ =>
      refine Fin.ext ?_
      show (((b.val * 1024 + n.val) * 16 + h.val) * 64 + d.val) / 1024 % 1024 = n.val
      omega
    | ⟨2, _⟩ => rfl
    | ⟨3, _⟩ =>
      refine Fin.ext ?_
      show (((b.val * 1024 + n.val) * 16 + h.val) * 64 + d.val) / 64 % 16 = h.val
      omega
    | ⟨4, _⟩ =>
      refine Fin.ext ?_
      show (((b.val * 1024 + n.val) * 16 + h.val) * 64 + d.val) % 64 = d.val
      omega
  rw [e, v8_read]

/-- The same block with the head axis before the row axis, [8,16,1024,64]. -/
theorem v10_read (b : Fin 8) (h : Fin 16) (n : Fin 1024) (d : Fin 64) :
    val_main_v10 (F := Ideal) x wq (ix4 b h n d) = Cert.Spec.qkv x wq b n (Cert.Spec.vcol h d) := by
  rw [val_main_v10_apply]
  have e : idx_main_v10 (ix4 b h n d) = ix4 b n h d := by
    funext a
    match a with
    | ⟨0, _⟩ => rfl
    | ⟨1, _⟩ => rfl
    | ⟨2, _⟩ => rfl
    | ⟨3, _⟩ => rfl
  rw [e, v9_read]

/-! ## The scores, the row maximum, the softmax weights -/

/-- The score product at (b, h, n, j): the query row n against the key row j of head h. -/
theorem v11_read (b : Fin 8) (h : Fin 16) (n j : Fin 1024) :
    val_main_v11 (F := Ideal) x wq (ix4 b h n j)
      = ∑ d : Fin 64, Cert.Spec.qkv x wq b n (Cert.Spec.qcol h d) * Cert.Spec.qkv x wq b j (Cert.Spec.kcol h d) := by
  rw [val_main_v11_apply]
  refine Finset.sum_congr rfl fun k _ => ?_
  have e1 : lidx_main_v11 (ix4 b h n j) k = ix4 b h n k := by
    funext a; match a with | ⟨0, _⟩ => rfl | ⟨1, _⟩ => rfl | ⟨2, _⟩ => rfl | ⟨3, _⟩ => rfl
  have e2 : ridx_main_v11 (ix4 b h n j) k = ix4 b h j k := by
    funext a; match a with | ⟨0, _⟩ => rfl | ⟨1, _⟩ => rfl | ⟨2, _⟩ => rfl | ⟨3, _⟩ => rfl
  rw [e1, e2, v4_read, v7_read]

/-- Scaled, it is the reference's score. -/
theorem v13_read (b : Fin 8) (h : Fin 16) (n j : Fin 1024) :
    val_main_v13 (F := Ideal) x wq (ix4 b h n j) = Cert.Spec.scoreR cR (Cert.Spec.qkv x wq) b h n j := by
  rw [val_main_v13_apply, val_main_v12_apply, val_main_cst_apply, v11_read]
  rfl

/-- A result index of the row reduction with the key coordinate k put back is (b, h, n, k). -/
theorem lift_row (hR : S8x16x1024x1024.Reduces [3] S8x16x1024) (b : Fin 8) (h : Fin 16) (n : Fin 1024)
    (k : Fin (S8x16x1024x1024.size 3)) :
    hR.lift (ix3 b h n) k = ix4 b h n (⟨k.val, k.isLt⟩ : Fin 1024) := by
  funext c
  refine Fin.ext ?_
  match c with
  | ⟨0, _⟩ => rfl
  | ⟨1, _⟩ => rfl
  | ⟨2, _⟩ => rfl
  | ⟨3, _⟩ => rfl

/-- The maximum of −∞ and y is y. -/
theorem max_negInf (y : EReal) : max Cert.Spec.negInf y = y := by
  simp [Cert.Spec.negInf, Ideal.ofBits, Ideal.ieee]

/-- The reduction by maximum from −∞ over the key axis is the score row's maximum. -/
theorem v14_read (b : Fin 8) (h : Fin 16) (n : Fin 1024) :
    val_main_v14 (F := Ideal) x wq (ix3 b h n)
      = Cert.Spec.rowmax (Cert.Spec.scoreR cR (Cert.Spec.qkv x wq) b h n) := by
  unfold val_main_v14
  have hy : ∀ j : Fin 1024, val_main_v13 (F := Ideal) x wq (ix4 b h n j)
      = Cert.Spec.scoreR cR (Cert.Spec.qkv x wq) b h n j := fun j => v13_read x wq b h n j
  generalize val_main_v13 (F := Ideal) x wq = y at hy ⊢
  have hR : S8x16x1024x1024.Reduces [3] S8x16x1024 := by decide
  rw [Host.reduce_eq_fold_single (FloatOps.maximumf (F := Ideal) (φ := .f32)) y _
    reducesTo_S8x16x1024x1024_S8x16x1024_d3 hR h_S_]
  have hf : (y ∘ hR.lift (ix3 b h n))
      = fun k : Fin 1024 => Cert.Spec.scoreR cR (Cert.Spec.qkv x wq) b h n k := funext fun k => by
    show y (hR.lift (ix3 b h n) k) = _
    rw [lift_row, hy]
    rfl
  rw [hf]
  rfl

/-- The maximum against the −∞ splat changes nothing. -/
theorem v16_read (b : Fin 8) (h : Fin 16) (n : Fin 1024) :
    val_main_v16 (F := Ideal) x wq (ix3 b h n)
      = Cert.Spec.rowmax (Cert.Spec.scoreR cR (Cert.Spec.qkv x wq) b h n) := by
  rw [val_main_v16_apply, val_main_v15_apply, val_main_cst_1_apply, v14_read]
  exact max_negInf _

/-- The row maximum, repeated along the key axis. -/
theorem v18_read (b : Fin 8) (h : Fin 16) (n j : Fin 1024) :
    val_main_v18 (F := Ideal) x wq (ix4 b h n j)
      = Cert.Spec.rowmax (Cert.Spec.scoreR cR (Cert.Spec.qkv x wq) b h n) := by
  rw [val_main_v18_apply, val_main_v17_apply]
  have e : idx_main_v17 (idx_main_v18 (ix4 b h n j)) = ix3 b h n := by
    funext a; match a with | ⟨0, _⟩ => rfl | ⟨1, _⟩ => rfl | ⟨2, _⟩ => rfl
  rw [e, v16_read]

/-- The exponential of the score less the row maximum. -/
theorem v20_read (b : Fin 8) (h : Fin 16) (n j : Fin 1024) :
    val_main_v20 (F := Ideal) x wq (ix4 b h n j)
      = Cert.Spec.pexp (Cert.Spec.scoreR cR (Cert.Spec.qkv x wq) b h n) j := by
  rw [val_main_v20_apply, val_main_v19_apply, v13_read, v18_read]
  rfl

/-- Their sum over the key axis, from zero. -/
theorem v21_read (b : Fin 8) (h : Fin 16) (n : Fin 1024) :
    val_main_v21 (F := Ideal) x wq (ix3 b h n)
      = Cert.Spec.denom (Cert.Spec.scoreR cR (Cert.Spec.qkv x wq) b h n) := by
  rw [val_main_v21_apply, val_main_cst_2_apply, Ideal.ofBits_def, Ideal.ofBits_zero_f32, zero_add]
  unfold Cert.Spec.denom
  refine Finset.sum_congr rfl fun k _ => ?_
  have e : idx_main_v21 (ix3 b h n) k = ix4 b h n k := by
    funext a; match a with | ⟨0, _⟩ => rfl | ⟨1, _⟩ => rfl | ⟨2, _⟩ => rfl | ⟨3, _⟩ => rfl
  rw [e, v20_read]

/-- The sum, repeated along the key axis. -/
theorem v23_read (b : Fin 8) (h : Fin 16) (n j : Fin 1024) :
    val_main_v23 (F := Ideal) x wq (ix4 b h n j)
      = Cert.Spec.denom (Cert.Spec.scoreR cR (Cert.Spec.qkv x wq) b h n) := by
  rw [val_main_v23_apply, val_main_v22_apply]
  have e : idx_main_v22 (idx_main_v23 (ix4 b h n j)) = ix3 b h n := by
    funext a; match a with | ⟨0, _⟩ => rfl | ⟨1, _⟩ => rfl | ⟨2, _⟩ => rfl
  rw [e, v21_read]

/-- The softmax weight: the exponential over the sum. -/
theorem v24_read (b : Fin 8) (h : Fin 16) (n j : Fin 1024) :
    val_main_v24 (F := Ideal) x wq (ix4 b h n j)
      = Ideal.div (Cert.Spec.pexp (Cert.Spec.scoreR cR (Cert.Spec.qkv x wq) b h n) j)
          (Cert.Spec.denom (Cert.Spec.scoreR cR (Cert.Spec.qkv x wq) b h n)) := by
  rw [val_main_v24_apply, v20_read, v23_read]
  rfl

/-! ## The attended values, the heads side by side, the output projection -/

/-- The weighted value sum at (b, h, n, d) is the reference's attended value. -/
theorem v25_read (b : Fin 8) (h : Fin 16) (n : Fin 1024) (d : Fin 64) :
    val_main_v25 (F := Ideal) x wq (ix4 b h n d) = Cert.Spec.attR cR (Cert.Spec.qkv x wq) b n h d := by
  rw [val_main_v25_apply]
  unfold Cert.Spec.attR
  refine Finset.sum_congr rfl fun k _ => ?_
  have e1 : lidx_main_v25 (ix4 b h n d) k = ix4 b h n k := by
    funext a; match a with | ⟨0, _⟩ => rfl | ⟨1, _⟩ => rfl | ⟨2, _⟩ => rfl | ⟨3, _⟩ => rfl
  have e2 : ridx_main_v25 (ix4 b h n d) k = ix4 b h k d := by
    funext a; match a with | ⟨0, _⟩ => rfl | ⟨1, _⟩ => rfl | ⟨2, _⟩ => rfl | ⟨3, _⟩ => rfl
  rw [e1, e2, v24_read, v10_read]

/-- The same with the row axis before the head axis, [8,1024,16,64]. -/
theorem v26_read (b : Fin 8) (n : Fin 1024) (h : Fin 16) (d : Fin 64) :
    val_main_v26 (F := Ideal) x wq (ix4 b n h d) = Cert.Spec.attR cR (Cert.Spec.qkv x wq) b n h d := by
  rw [val_main_v26_apply]
  have e : idx_main_v26 (ix4 b n h d) = ix4 b h n d := by
    funext a; match a with | ⟨0, _⟩ => rfl | ⟨1, _⟩ => rfl | ⟨2, _⟩ => rfl | ⟨3, _⟩ => rfl
  rw [e, v25_read]

/-- Laid out as [8,1024,1024], column k is head k / 64, lane k % 64. -/
theorem v27_read (b : Fin 8) (n k : Fin 1024) :
    val_main_v27 (F := Ideal) x wq (ix3 b n k)
      = Cert.Spec.merge (Cert.Spec.attR cR (Cert.Spec.qkv x wq)) b n k := by
  rw [val_main_v27_apply]
  have e : idx_main_v27 (ix3 b n k)
      = ix4 b n (⟨k.val / 64, by omega⟩ : Fin 16) (⟨k.val % 64, by omega⟩ : Fin 64) := by
    funext a
    match a with
    | ⟨0, _⟩ =>
      refine Fin.ext ?_
      show ((b.val * 1024 + n.val) * 1024 + k.val) / 1048576 = b.val
      omega
    | ⟨1, _⟩ =>
      refine Fin.ext ?_
      show ((b.val * 1024 + n.val) * 1024 + k.val) / 1024 % 1024 = n.val
      omega
    | ⟨2, _⟩ =>
      refine Fin.ext ?_
      show ((b.val * 1024 + n.val) * 1024 + k.val) / 64 % 16 = k.val / 64
      omega
    | ⟨3, _⟩ =>
      refine Fin.ext ?_
      show ((b.val * 1024 + n.val) * 1024 + k.val) % 64 = k.val % 64
      omega
  rw [e, v26_read]
  rfl

/-- The output product at (b, n, o). -/
theorem v28_read (b : Fin 8) (n o : Fin 1024) :
    val_main_v28 (F := Ideal) x wq wp (ix3 b n o)
      = ∑ k : Fin 1024, Cert.Spec.merge (Cert.Spec.attR cR (Cert.Spec.qkv x wq)) b n k * wp (ix2 o k) := by
  rw [val_main_v28_apply]
  refine Finset.sum_congr rfl fun k _ => ?_
  have e1 : lidx_main_v28 (ix3 b n o) k = ix3 b n k := by
    funext a; match a with | ⟨0, _⟩ => rfl | ⟨1, _⟩ => rfl | ⟨2, _⟩ => rfl
  have e2 : ridx_main_v28 (ix3 b n o) k = ix2 o k := by
    funext a; match a with | ⟨0, _⟩ => rfl | ⟨1, _⟩ => rfl
  rw [e1, e2, v27_read]

/-- The bias, repeated over batch and row. -/
theorem v30_read (b : Fin 8) (n o : Fin 1024) :
    val_main_v30 (F := Ideal) bp (ix3 b n o) = bp (ix1 o) := by
  rw [val_main_v30_apply, val_main_v29_apply]
  have e : idx_main_v29 (idx_main_v30 (ix3 b n o)) = ix1 o := by
    funext a; match a with | ⟨0, _⟩ => rfl
  rw [e]

/-- The last stage at (b, n, o) is the specification's reference-side result. -/
theorem v31_read (b : Fin 8) (n o : Fin 1024) :
    val_main_v31 (F := Ideal) x wq wp bp (ix3 b n o) = Cert.Spec.resR cR x wq wp bp b n o := by
  rw [val_main_v31_apply, v28_read, v30_read]
  rfl

/-! ## The program's result -/

/-- The reference program's result at (b, n, o) is the specification's reference-side function of the four inputs. -/
theorem ref_result (m : (ℓ : Loc nD τ sig) → Buf (Elt Ideal) ℓ) (c : Dev nD) (b : Fin 8) (n : Fin 1024) (o : Fin 1024) :
    Cert.ReferenceIdeal.Value.res_out0 (F := Ideal) m c (ix3 b n o)
      = Cert.Spec.resR (Ideal.ofBits .f32 0x3E000000#32) (m ((c.tc : Thread nD τ).loc main_arg0))
          (m ((c.tc : Thread nD τ).loc main_arg1)) (m ((c.tc : Thread nD τ).loc main_arg2))
          (m ((c.tc : Thread nD τ).loc main_arg3)) b n o := by
  have h := congrFun (val_main_v31_eq (F := Ideal) m c) (ix3 b n o)
  exact h.trans (v31_read _ _ _ _ b n o)

end Cert.ReferenceIdeal.RefValue

end
-- ==== Proof.Algebra.lean ====
/-
  The algebraic law that joins the two attention formulas, over the extended reals, for real-valued data.

  For a real scale r and real-valued packed projection the two score rows agree, since (q·r)·k summed over the lanes
  is (Σ q·k)·r. A real-valued score row has a real row maximum M (the fold of max from −∞ over a nonempty index set
  is one of the row's entries), so every shifted exponential is a positive real p_j and their sum L is a positive
  real. Dividing by L is multiplying by the real 1/L, and Σ_j (p_j·(1/L))·v_j = (Σ_j p_j·v_j)·(1/L).
-/
import proofs.«411608_j37881611550827_3_alg».proof.Proof.Spec
import Mathlib.Data.EReal.Operations
import Mathlib.Data.EReal.Inv
import Mathlib.Data.Finset.Lattice.Fold
import Mathlib.Algebra.BigOperators.Ring.Finset
import Mathlib.Analysis.SpecialFunctions.Exp

noncomputable section

namespace Cert.Spec

open Idealize.ShloMosaic Idealize.ShloMosaic.ValueIdx

/-! ### The literals -/

/-- The pattern 0x3E00 at bf16 is 2⁻³. -/
theorem scale_bf16 : Ideal.ofBits .bf16 0x3E00#16 = (((1 / 8 : ℝ)) : EReal) := by
  simp [Ideal.ofBits, Ideal.ieee, -EReal.coe_mul]; norm_num

/-- The pattern 0x3E000000 at f32 is 2⁻³. -/
theorem scale_f32 : Ideal.ofBits .f32 0x3E000000#32 = (((1 / 8 : ℝ)) : EReal) := by
  simp [Ideal.ofBits, Ideal.ieee, -EReal.coe_mul]; norm_num

/-- The pattern the row maximum starts from is −∞. -/
theorem negInf_eq : negInf = ⊥ := by
  simp [negInf, Ideal.ofBits, Ideal.ieee]

/-! ### Finite sums of reals inside the extended reals -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real-valued family is the coercion of a family of reals. -/
theorem exists_real_fun {ι : Type*} (f : ι → EReal) (hf : ∀ i, ∃ r : ℝ, f i = (r : EReal)) :
    ∃ g : ι → ℝ, f = fun i => (g i : EReal) := by
  choose g hg using hf
  exact ⟨g, funext hg⟩

/-- The packed projection of real-valued data is real-valued. -/
theorem qkv_real (X : SX.Idx → EReal) (W : SWq.Idx → EReal) (hX : ∀ i, ∃ r : ℝ, X i = (r : EReal))
    (hW : ∀ i, ∃ r : ℝ, W i = (r : EReal)) :
    ∀ b n o, ∃ r : ℝ, qkv X W b n o = (r : EReal) := by
  obtain ⟨x, rfl⟩ := exists_real_fun X hX
  obtain ⟨w, rfl⟩ := exists_real_fun W hW
  intro b n o
  refine ⟨∑ k : Fin 1024, x (ix3 b n k) * w (ix2 o k), ?_⟩
  rw [qkv, coe_sum]
  exact Finset.sum_congr rfl fun k _ => (EReal.coe_mul _ _).symm

/-! ### The score rows -/

/-- The kernel's score row of real data with a real scale, as a row of reals. -/
theorem scoreK_coe (r : ℝ) (q : Fin 8 → Fin 1024 → Fin 3072 → ℝ) (b : Fin 8) (h : Fin 16) (n : Fin 1024) :
    scoreK (r : EReal) (fun b n o => (q b n o : EReal)) b h n
      = fun j => (((∑ d : Fin 64, q b n (qcol h d) * q b j (kcol h d)) * r : ℝ) : EReal) := by
  funext j
  rw [scoreK, Finset.sum_mul, coe_sum]
  refine Finset.sum_congr rfl fun d _ => ?_
  rw [← EReal.coe_mul, ← EReal.coe_mul]
  congr 1; ring

/-- The reference's score row of real data with a real scale: the same row of reals. -/
theorem scoreR_coe (r : ℝ) (q : Fin 8 → Fin 1024 → Fin 3072 → ℝ) (b : Fin 8) (h : Fin 16) (n : Fin 1024) :
    scoreR (r : EReal) (fun b n o => (q b n o : EReal)) b h n
      = fun j => (((∑ d : Fin 64, q b n (qcol h d) * q b j (kcol h d)) * r : ℝ) : EReal) := by
  funext j
  rw [scoreR, EReal.coe_mul, coe_sum]
  congr 1

/-! ### One real row -/

/-- A real row's maximum is real: the fold of max from −∞ over a nonempty index set is one of the entries. -/
theorem rowmax_real (t : Fin 1024 → ℝ) : ∃ M : ℝ, rowmax (fun j => (t j : EReal)) = (M : EReal) := by
  obtain ⟨i, -, hi⟩ := Finset.exists_mem_eq_sup (Finset.univ : Finset (Fin 1024)) ⟨0, Finset.mem_univ _⟩
    (fun j => (t j : EReal))
  refine ⟨t i, ?_⟩
  rw [← hi, rowmax, negInf_eq]
  rfl

/-- Softmax weighting of a real value row by a real score row: dividing the weighted sum by the weights' sum is
    dividing each weight first. -/
theorem row_law (t v : Fin 1024 → ℝ) :
    Ideal.div (∑ j : Fin 1024, pexp (fun j => (t j : EReal)) j * (v j : EReal)) (denom (fun j => (t j : EReal)))
      = ∑ j : Fin 1024, Ideal.div (pexp (fun j => (t j : EReal)) j) (denom (fun j => (t j : EReal))) * (v j : EReal) := by
  obtain ⟨M, hM⟩ := rowmax_real t
  have hp : ∀ j, pexp (fun j => (t j : EReal)) j = ((Real.exp (t j - M) : ℝ) : EReal) := by
    intro j
    rw [pexp, hM, ← EReal.coe_sub, Ideal.exp_coe]
  have hd : denom (fun j => (t j : EReal)) = ((∑ j : Fin 1024, Real.exp (t j - M) : ℝ) : EReal) := by
    rw [denom, coe_sum]
    exact Finset.sum_congr rfl fun j _ => hp j
  have hL : (∑ j : Fin 1024, Real.exp (t j - M)) ≠ 0 :=
    ne_of_gt (Finset.sum_pos (fun j _ => Real.exp_pos _) ⟨0, Finset.mem_univ _⟩)
  have e1 : (∑ j : Fin 1024, ((Real.exp (t j - M) : ℝ) : EReal) * (v j : EReal))
      = ((∑ j : Fin 1024, Real.exp (t j - M) * v j : ℝ) : EReal) := by
    rw [coe_sum]
    exact Finset.sum_congr rfl fun j _ => (EReal.coe_mul _ _).symm
  rw [hd, Ideal.div_coe hL]
  simp only [Ideal.div_coe hL, hp]
  rw [e1, ← EReal.coe_mul, Finset.sum_mul, coe_sum]
  refine Finset.sum_congr rfl fun j _ => ?_
  rw [← EReal.coe_mul, ← EReal.coe_mul]
  exact congrArg Real.toEReal (by ring)

/-! ### The attended arrays and the results -/

/-- For a real scale and a real-valued packed projection the two attended arrays agree. -/
theorem att_eq (cK cR : EReal) (r : ℝ) (hK : cK = (r : EReal)) (hR : cR = (r : EReal))
    (Q : Fin 8 → Fin 1024 → Fin 3072 → EReal) (hQ : ∀ b n o, ∃ x : ℝ, Q b n o = (x : EReal)) :
    attK cK Q = attR cR Q := by
  subst hK hR
  obtain ⟨q, rfl⟩ : ∃ q : Fin 8 → Fin 1024 → Fin 3072 → ℝ, Q = fun b n o => (q b n o : EReal) := by
    choose q hq using hQ
    exact ⟨q, by funext b n o; exact hq b n o⟩
  funext b n h d
  rw [attK, attR, scoreK_coe, scoreR_coe]
  exact row_law _ (fun j => q b j (vcol h d))

/-- The two results agree on real-valued input and projection weight: both scales are 2⁻³. -/
theorem res_eq (X : SX.Idx → EReal) (Wq : SWq.Idx → EReal) (Wp : SWp.Idx → EReal) (bp : Sb.Idx → EReal)
    (hX : ∀ i, ∃ r : ℝ, X i = (r : EReal)) (hW : ∀ i, ∃ r : ℝ, Wq i = (r : EReal)) :
    resK (Ideal.ofBits .bf16 0x3E00#16) X Wq Wp bp = resR (Ideal.ofBits .f32 0x3E000000#32) X Wq Wp bp := by
  funext b n o
  rw [resK, resR, att_eq _ _ (1 / 8) scale_bf16 scale_f32 (qkv X Wq) (qkv_real X Wq hX hW)]

end Cert.Spec

end
-- ==== Proof.Finite.lean ====
/-
  From the precondition to real entries.

  The precondition says that for each of the four input arrays the conjunction, over all entries a, of
  |a| < +∞ holds. Over the extended reals |a| = max a (−a), and the pattern 0x7F800000 denotes ⊤; max a (−a) < ⊤
  fails at a = ⊤ and at a = ⊥ (where −a = ⊤), so every entry is a real number. Only the first two arrays, the input
  x and the packed projection weight, are read off here.
-/
import proofs.«411608_j37881611550827_3_alg».proof.Defs
import Idealize.ShloMosaic.Lib.ReduceAll
import Idealize.ShloMosaic.Lib.ValueIdx

noncomputable section

namespace Cert.Proof.Finite

open Idealize.ShloMosaic Idealize.SL.Sem

/-- The pattern of +∞ denotes ⊤. -/
theorem inf_eq_top : Ideal.ofBits .f32 0x7F800000#32 = (⊤ : EReal) := by
  simp [Ideal.ofBits, Ideal.ieee]

/-- An extended real whose absolute value is strictly below +∞ is a real number. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

open Cert.Pre_finite_inputs in
/-- The predicate, all ones on four arrays, makes every entry of the first two a real number: its value is the
    conjunction of four reductions by `and`, and each reduction that is 1 met a 1 at every index. -/
theorem real_of_fn [hPre : Cert.Pre_finite_inputs.Facts]
    (X : FVec Ideal S8x1024x1024 .f32) (W : FVec Ideal S3072x1024 .f32) (Wp : FVec Ideal S1024x1024 .f32)
    (bp : FVec Ideal S1024 .f32) (h : Cert.Pre_finite_inputs.fn (F := Ideal) X W Wp bp = fun _ => 1#1) :
    (∀ i, ∃ r : ℝ, X i = (r : EReal)) ∧ (∀ i, ∃ r : ℝ, W i = (r : EReal)) := by
  have h0 := congrFun h ValueIdx.ix0
  dsimp only [Cert.Pre_finite_inputs.fn, Cert.Pre_finite_inputs.fn_part1, andi] at h0
  obtain ⟨⟨⟨hX, hW⟩, -⟩, -⟩ :=
    (IntOp.andi_eq_one.1 h0).imp (fun h1 => (IntOp.andi_eq_one.1 h1).imp IntOp.andi_eq_one.1 id) id
  refine ⟨fun i => ?_, fun i => ?_⟩
  · exact real_of_abs_lt_inf (X i) (Host.reduce_andi_all _ _ _ _ _ hX i)
  · exact real_of_abs_lt_inf (W i) (Host.reduce_andi_all _ _ _ _ _ hW i)

/-- On every device, every entry of the kernel's first two argument arrays is a real number. -/
theorem real_inputs [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  real_of_fn _ _ _ _ (hpre c)

end Cert.Proof.Finite

end
-- ==== Proof.lean ====
/-
  The claims of this certificate.

  The kernel program is three pipelined kernels among reshapes: x · Wqkvᵀ into a packed projection, attention per
  batch entry and head pair over that projection (its three input windows read the one projection array), and the
  output projection a · Wprojᵀ + bias. The reference is the same computation as whole-array host operations.

  Frames: each kernel program runs to the end, faults nowhere and leaves its arguments as launched, by the run of
  @main's seven items (Proof/KI/Run.lean for the idealized program, Proof/KB/Run.lean for the word-level one); the
  reference's by its run with the result dropped. The idealization rewrote nothing, so `preserves` is trivial.

  Values, over the extended reals: the kernel's result array is Spec.resK of the four inputs (Proof/KI/Glue.lean, from
  the three regions' value lemmas), the reference's is Spec.resR (Proof/RefValue.lean). The two differ in where the
  scale 1/8 multiplies (the query before the score product, or the score product) and in where the softmax's sum
  divides (the weighted value sum, or each weight): for REAL data these agree (Proof/Algebra.lean), and the
  precondition makes x and Wqkv real (Proof/Finite.lean), hence the packed projection.
-/
import proofs.«411608_j37881611550827_3_alg».proof.Defs
import proofs.«411608_j37881611550827_3_alg».proof.Proof.Gen.Kernel
import proofs.«411608_j37881611550827_3_alg».proof.Proof.Gen.KernelIdeal
import proofs.«411608_j37881611550827_3_alg».proof.Proof.Gen.ReferenceIdeal
import proofs.«411608_j37881611550827_3_alg».proof.Proof.Gen.Pre_finite_inputs
import proofs.«411608_j37881611550827_3_alg».proof.Proof.Gen.ReferenceIdeal.Run
import proofs.«411608_j37881611550827_3_alg».proof.Proof.KI.Run
import proofs.«411608_j37881611550827_3_alg».proof.Proof.KB.Run
import proofs.«411608_j37881611550827_3_alg».proof.Proof.KI.Glue
import proofs.«411608_j37881611550827_3_alg».proof.Proof.RefValue
import proofs.«411608_j37881611550827_3_alg».proof.Proof.Algebra
import proofs.«411608_j37881611550827_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and keeps its arguments. -/
theorem frame_k : Cert.frame_Kernel (hKernel := Cert.Kernel.Gen.facts) (hPre_finite_inputs := Cert.Pre_finite_inputs.Gen.facts) :=
  fun m ρ _ => Cert.Kernel.Fr.frame (F := Bits) m ρ

/-- The idealized program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the same result: the kernel's array is
    Spec.resK of the inputs, the reference's Spec.resR, and for the real inputs the precondition grants these agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.W7 (F := Ideal) m ρ c (Proc.devRef .tc Cert.KernelIdeal.main_v9),
    Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, n, o, rfl⟩ : ∃ (b : Fin 8) (n : Fin 1024) (o : Fin 1024), i = ix3 b n o := ⟨i 0, i 1, i 2, eq_ix3 i⟩
  have hk := Cert.KernelIdeal.Val.kernel_result m ρ c b n o
  have hr := Cert.ReferenceIdeal.RefValue.ref_result m' c b n o
  rw [(hagree c).1, (hagree c).2.1, (hagree c).2.2.1, (hagree c).2.2.2] at hr
  obtain ⟨hx, hw⟩ := Cert.Proof.Finite.real_inputs m hpre c
  exact hr.trans ((congrFun (congrFun (congrFun (Cert.Spec.res_eq _ _ _ _ hx hw) b) n) o).symm.trans hk.symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
